-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x4096 : Shape := ⟨2, ![1024, 4096]⟩
abbrev S4096 : Shape := ⟨1, ![4096]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S4096 .f32) (main_arg8 : FVec F S1024 .f32) (main_arg9 : FVec F S1024 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  main_v48

def fn_part1 {F : FTy → Type} [FloatOps F] (main_arg4 : FVec F S1024x4096 .f32) (main_arg5 : FVec F S4096 .f32) (main_arg6 : FVec F S4096 .f32) (main_arg7 : FVec F S4096 .f32) (main_arg8 : FVec F S1024 .f32) (main_arg9 : FVec F S1024 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S1024x4096 .f32 := Host.absf main_arg4
  let main_cst_6 : FVec F S_ .f32 := constant S_ .f32 0x7F800000#32
  let main_v20 : FVec F S1024x4096 .f32 := broadcastInDim S1024x4096 ![] bcast_S_S1024x4096 main_cst_6
  let main_v21 : IVec S1024x4096 1 := cmpf .olt main_v19 main_v20
  let main_c_7 : IVec S_ 1 := constantI S_ 1 1#1
  let main_v22 : IVec S_ 1 := (fun x v => Host.reduce IntOp.andi x v reducesTo_S1024x4096_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_arg9 main_v33

def fn {F : FTy → Type} [FloatOps F] (main_arg0 : FVec F S8192x1024 .f32) (main_arg1 : FVec F S8192x1024 .f32) (main_arg2 : FVec F S8192x1024 .f32) (main_arg3 : FVec F S1024x4096 .f32) (main_arg4 : FVec F S1024x4096 .f32) (main_arg5 : FVec F S4096 .f32) (main_arg6 : FVec F S4096 .f32) (main_arg7 : FVec F S4096 .f32) (main_arg8 : FVec F S1024 .f32) (main_arg9 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg4 main_arg5 main_arg6 main_arg7 main_arg8 main_arg9 main_v13 main_v16
-- ==== Kernel.lean ====
abbrev S8192x1024 : Shape := ⟨2, ![8192, 1024]⟩
abbrev S1024x4096 : Shape := ⟨2, ![1024, 4096]⟩
abbrev S4096 : Shape := ⟨1, ![4096]⟩
abbrev S1024 : Shape := ⟨1, ![1024]⟩
abbrev S1x4096 : Shape := ⟨2, ![1, 4096]⟩
abbrev S1x1024 : Shape := ⟨2, ![1, 1024]⟩
abbrev S128x1024 : Shape := ⟨2, ![128, 1024]⟩
abbrev S128x4096 : Shape := ⟨2, ![128, 4096]⟩
abbrev S128 : Shape := ⟨1, ![128]⟩
abbrev S128x1 : Shape := ⟨2, ![128, 1]⟩

abbrev nBuf : Space → Nat
  | .hbm => 19
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x4096, .f32⟩
  | .hbm, ⟨4, _⟩ => ⟨S1024x4096, .f32⟩
  | .hbm, ⟨5, _⟩ => ⟨S4096, .f32⟩
  | .hbm, ⟨6, _⟩ => ⟨S4096, .f32⟩
  | .hbm, ⟨7, _⟩ => ⟨S4096, .f32⟩
  | .hbm, ⟨8, _⟩ => ⟨S1024, .f32⟩
  | .hbm, ⟨9, _⟩ => ⟨S1024, .f32⟩
  | .hbm, ⟨10, _⟩ => ⟨S1024x4096, .bf16⟩
  | .hbm, ⟨11, _⟩ => ⟨S1024x4096, .bf16⟩
  | .hbm, ⟨12, _⟩ => ⟨S1x4096, .f32⟩
  | .hbm, ⟨13, _⟩ => ⟨S1x4096, .f32⟩
  | .hbm, ⟨14, _⟩ => ⟨S1x4096, .f32⟩
  | .hbm, ⟨15, _⟩ => ⟨S1x1024, .f32⟩
  | .hbm, ⟨16, _⟩ => ⟨S1x1024, .f32⟩
  | .hbm, ⟨17, _⟩ => ⟨S8192x1024, .f32⟩
  | .hbm, ⟨18, _⟩ => ⟨S8192x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S1x4096, .f32⟩
  | .local _ .vmem, ⟨10, _⟩ => ⟨S1x4096, .f32⟩
  | .local _ .vmem, ⟨11, _⟩ => ⟨S1x1024, .f32⟩
  | .local _ .vmem, ⟨12, _⟩ => ⟨S1x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bitsLt_bf16_f32 : FTy.bits .bf16 < FTy.bits .f32
  shapeCasts_S4096_S1x4096 : S4096.ShapeCasts S1x4096
  shapeCasts_S1024_S1x1024 : S1024.ShapeCasts S1x1024
  inb_S128x1024_S128x1024_0_0 : ∀ a, (![0, 0] : Fin 2 → Nat) a + S128x1024.size a ≤ S128x1024.size a
  h_S128x1024 : 0 < S128x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  slices_S128x4096_o0_0_S128x1024 : S128x4096.Slices ![0, 0] S128x1024
  inb_S1x4096_S1x1024_0_0 : ∀ a, (![0, 0] : Fin 2 → Nat) a + S1x1024.size a ≤ S1x4096.size a
  h_S1x1024 : 0 < S1x1024.numel
  shapeCasts_S1x1024_S1x1024 : S1x1024.ShapeCasts S1x1024
  reduces_S128x1024_S128 : S128x1024.Reduces [1] S128
  shapeCasts_S128_S128x1 : S128.ShapeCasts S128x1
  broadcasts_S128x1_S128x1024 : S128x1.Broadcasts S128x1024
  broadcasts_S1x1024_S128x1024 : S1x1024.Broadcasts S128x1024
  slices_S128x4096_o0_1024_S128x1024 : S128x4096.Slices ![0, 1024] S128x1024
  inb_S1x4096_S1x1024_0_1024 : ∀ a, (![0, 1024] : Fin 2 → Nat) a + S1x1024.size a ≤ S1x4096.size a
  slices_S128x4096_o0_2048_S128x1024 : S128x4096.Slices ![0, 2048] S128x1024
  inb_S1x4096_S1x1024_0_2048 : ∀ a, (![0, 2048] : Fin 2 → Nat) a + S1x1024.size a ≤ S1x4096.size a
  slices_S128x4096_o0_3072_S128x1024 : S128x4096.Slices ![0, 3072] S128x1024
  inb_S1x4096_S1x1024_0_3072 : ∀ a, (![0, 3072] : Fin 2 → Nat) a + S1x1024.size a ≤ S1x4096.size a
  inb_S1x1024_S1x1024_0_0 : ∀ a, (![0, 0] : Fin 2 → Nat) a + S1x1024.size a ≤ S1x1024.size a
  dot_S128x1024_S1024x4096_S128x4096_1_0_0_1_n_n_wf : DotDims.WF S128x1024 S1024x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S8192x1024.size a
  hwx0_0 : ∀ i : grid0.Coords, EltTy.bits .f32 = 32 ∨ (Rect.block (s := S8192x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S8192x1024.size a
  hwx0_1 : ∀ i : grid0.Coords, EltTy.bits .f32 = 32 ∨ (Rect.block (s := S8192x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S8192x1024.size a
  hwx0_2 : ∀ i : grid0.Coords, EltTy.bits .f32 = 32 ∨ (Rect.block (s := S8192x1024) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4096.size a ≤ S1x4096.size a
  hwx0_6 : ∀ i : grid0.Coords, EltTy.bits .f32 = 32 ∨ (Rect.block (s := S1x4096) S1x4096.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x4096.size a ≤ S1x4096.size a
  hwx0_7 : ∀ i : grid0.Coords, EltTy.bits .f32 = 32 ∨ (Rect.block (s := S1x4096) S1x4096.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x1024.size a ≤ S8192x1024.size a
  hwx0_10 : ∀ i : grid0.Coords, EltTy.bits .f32 = 32 ∨ (Rect.block (s := S8192x1024) S128x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x1024.size a ≤ S8192x1024.size a
  hwx0_11 : ∀ i : grid0.Coords, EltTy.bits .f32 = 32 ∨ (Rect.block (s := S8192x1024) S128x1024.size (cc0_transform_11 i) (hinb0_11 i)).WholeWords (EltTy.packing .f32)

variable [Facts₀]

def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x4096.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7_0) S128x1024.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v7_1) S128x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x4096 : Shape := ⟨2, ![1024, 4096]⟩
abbrev S4096 : Shape := ⟨1, ![4096]⟩
abbrev S1024 : Shape := ⟨1, ![1024]⟩
abbrev S8192x4096 : Shape := ⟨2, ![8192, 4096]⟩
abbrev S1x4096 : Shape := ⟨2, ![1, 4096]⟩
abbrev S8192x4x1024 : Shape := ⟨3, ![8192, 4, 1024]⟩
abbrev S_ : Shape := ⟨0, ![]⟩
abbrev S8192x4 : Shape := ⟨2, ![8192, 4]⟩
abbrev S8192x4x1 : Shape := ⟨3, ![8192, 4, 1]⟩
abbrev S8192x1x1024 : Shape := ⟨3, ![8192, 1, 1024]⟩
abbrev S8192x1 : Shape := ⟨2, ![8192, 1]⟩
abbrev S8192x1x1 : Shape := ⟨3, ![8192, 1, 1]⟩
abbrev S1x1024 : Shape := ⟨2, ![1, 1024]⟩

abbrev nBuf : Space → Nat
  | .hbm => 115
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x4096, .f32⟩
  | .hbm, ⟨4, _⟩ => ⟨S1024x4096, .f32⟩
  | .hbm, ⟨5, _⟩ => ⟨S4096, .f32⟩
  | .hbm, ⟨6, _⟩ => ⟨S4096, .f32⟩
  | .hbm, ⟨7, _⟩ => ⟨S4096, .f32⟩
  | .hbm, ⟨8, _⟩ => ⟨S1024, .f32⟩
  | .hbm, ⟨9, _⟩ => ⟨S1024, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S1x4096, .f32⟩
  | .hbm, ⟨14, _⟩ => ⟨S8192x4096, .f32⟩
  | .hbm, ⟨15, _⟩ => ⟨S8192x4096, .f32⟩
  | .hbm, ⟨16, _⟩ => ⟨S8192x4x1024, .f32⟩
  | .hbm, ⟨17, _⟩ => ⟨S_, .f32⟩
  | .hbm, ⟨18, _⟩ => ⟨S8192x4, .f32⟩
  | .hbm, ⟨19, _⟩ => ⟨S8192x4x1, .f32⟩
  | .hbm, ⟨20, _⟩ => ⟨S_, .f32⟩
  | .hbm, ⟨21, _⟩ => ⟨S8192x4x1, .f32⟩
  | .hbm, ⟨22, _⟩ => ⟨S8192x4x1, .f32⟩
  | .hbm, ⟨23, _⟩ => ⟨S8192x4x1024, .f32⟩
  | .hbm, ⟨24, _⟩ => ⟨S8192x4x1024, .f32⟩
  | .hbm, ⟨25, _⟩ => ⟨S8192x4x1024, .f32⟩
  | .hbm, ⟨26, _⟩ => ⟨S_, .f32⟩
  | .hbm, ⟨27, _⟩ => ⟨S8192x4, .f32⟩
  | .hbm, ⟨28, _⟩ => ⟨S8192x4x1, .f32⟩
  | .hbm, ⟨29, _⟩ => ⟨S_, .f32⟩
  | .hbm, ⟨30, _⟩ => ⟨S8192x4x1, .f32⟩
  | .hbm, ⟨31, _⟩ => ⟨S8192x4x1, .f32⟩
  | .hbm, ⟨32, _⟩ => ⟨S8192x4x1024, .f32⟩
  | .hbm, ⟨33, _⟩ => ⟨S8192x4x1024, .f32⟩
  | .hbm, ⟨34, _⟩ => ⟨S_, .f32⟩
  | .hbm, ⟨35, _⟩ => ⟨S8192x4x1, .f32⟩
  | .hbm, ⟨36, _⟩ => ⟨S8192x4x1, .f32⟩
  | .hbm, ⟨37, _⟩ => ⟨S8192x4x1, .f32⟩
  | .hbm, ⟨38, _⟩ => ⟨S8192x4x1024, .f32⟩
  | .hbm, ⟨39, _⟩ => ⟨S8192x4x1024, .f32⟩
  | .hbm, ⟨40, _⟩ => ⟨S8192x4096, .f32⟩
  | .hbm, ⟨41, _⟩ => ⟨S1x4096, .f32⟩
  | .hbm, ⟨42, _⟩ => ⟨S8192x4096, .f32⟩
  | .hbm, ⟨43, _⟩ => ⟨S8192x4096, .f32⟩
  | .hbm, ⟨44, _⟩ => ⟨S1x4096, .f32⟩
  | .hbm, ⟨45, _⟩ => ⟨S8192x4096, .f32⟩
  | .hbm, ⟨46, _⟩ => ⟨S8192x4096, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S8192x1024, .f32⟩
  | .hbm, ⟨67, _⟩ => ⟨S8192x1024, .f32⟩
  | .hbm, ⟨68, _⟩ => ⟨S_, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1x1024, .f32⟩
  | .hbm, ⟨75, _⟩ => ⟨S_, .f32⟩
  | .hbm, ⟨76, _⟩ => ⟨S8192x1, .f32⟩
  | .hbm, ⟨77, _⟩ => ⟨S8192x1x1, .f32⟩
  | .hbm, ⟨78, _⟩ => ⟨S_, .f32⟩
  | .hbm, ⟨79, _⟩ => ⟨S8192x1x1, .f32⟩
  | .hbm, ⟨80, _⟩ => ⟨S8192x1x1, .f32⟩
  | .hbm, ⟨81, _⟩ => ⟨S8192x1x1024, .f32⟩
  | .hbm, ⟨82, _⟩ => ⟨S8192x1x1024, .f32⟩
  | .hbm, ⟨83, _⟩ => ⟨S8192x1x1024, .f32⟩
  | .hbm, ⟨84, _⟩ => ⟨S_, .f32⟩
  | .hbm, ⟨85, _⟩ => ⟨S8192x1, .f32⟩
  | .hbm, ⟨86, _⟩ => ⟨S8192x1x1, .f32⟩
  | .hbm, ⟨87, _⟩ => ⟨S_, .f32⟩
  | .hbm, ⟨88, _⟩ => ⟨S8192x1x1, .f32⟩
  | .hbm, ⟨89, _⟩ => ⟨S8192x1x1, .f32⟩
  | .hbm, ⟨90, _⟩ => ⟨S8192x1x1024, .f32⟩
  | .hbm, ⟨91, _⟩ => ⟨S8192x1x1024, .f32⟩
  | .hbm, ⟨92, _⟩ => ⟨S_, .f32⟩
  | .hbm, ⟨93, _⟩ => ⟨S8192x1x1, .f32⟩
  | .hbm, ⟨94, _⟩ => ⟨S8192x1x1, .f32⟩
  | .hbm, ⟨95, _⟩ => ⟨S8192x1x1, .f32⟩
  | .hbm, ⟨96, _⟩ => ⟨S8192x1x1024, .f32⟩
  | .hbm, ⟨97, _⟩ => ⟨S8192x1x1024, .f32⟩
  | .hbm, ⟨98, _⟩ => ⟨S8192x1024, .f32⟩
  | .hbm, ⟨99, _⟩ => ⟨S1x1024, .f32⟩
  | .hbm, ⟨100, _⟩ => ⟨S8192x1024, .f32⟩
  | .hbm, ⟨101, _⟩ => ⟨S8192x1024, .f32⟩
  | .hbm, ⟨102, _⟩ => ⟨S1x1024, .f32⟩
  | .hbm, ⟨103, _⟩ => ⟨S8192x1024, .f32⟩
  | .hbm, ⟨104, _⟩ => ⟨S8192x1024, .f32⟩
  | .hbm, ⟨105, _⟩ => ⟨S8192x1024, .f32⟩
  | .hbm, ⟨106, _⟩ => ⟨S8192x1024, .f32⟩
  | .hbm, ⟨107, _⟩ => ⟨S8192x1024, .f32⟩
  | .hbm, ⟨108, _⟩ => ⟨S_, .f32⟩
  | .hbm, ⟨109, _⟩ => ⟨S8192x1024, .f32⟩
  | .hbm, ⟨110, _⟩ => ⟨S8192x1024, .f32⟩
  | .hbm, ⟨111, _⟩ => ⟨S_, .f32⟩
  | .hbm, ⟨112, _⟩ => ⟨S8192x1024, .f32⟩
  | .hbm, ⟨113, _⟩ => ⟨S8192x1024, .f32⟩
  | .hbm, ⟨114, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_5 : Ref sig .tc := ⟨.hbm, 56, rfl⟩
abbrev main_v40 : Ref sig .tc := ⟨.hbm, 57, rfl⟩
abbrev main_v41 : Ref sig .tc := ⟨.hbm, 58, rfl⟩
abbrev main_cst_6 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_7 : Ref sig .tc := ⟨.hbm, 65, rfl⟩
abbrev main_v47 : Ref sig .tc := ⟨.hbm, 66, rfl⟩
abbrev main_v48 : Ref sig .tc := ⟨.hbm, 67, rfl⟩
abbrev main_cst_8 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_9 : Ref sig .tc := ⟨.hbm, 75, rfl⟩
abbrev main_v55 : Ref sig .tc := ⟨.hbm, 76, rfl⟩
abbrev main_v56 : Ref sig .tc := ⟨.hbm, 77, rfl⟩
abbrev main_cst_10 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_11 : Ref sig .tc := ⟨.hbm, 84, rfl⟩
abbrev main_v62 : Ref sig .tc := ⟨.hbm, 85, rfl⟩
abbrev main_v63 : Ref sig .tc := ⟨.hbm, 86, rfl⟩
abbrev main_cst_12 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_13 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_14 : Ref sig .tc := ⟨.hbm, 108, rfl⟩
abbrev main_v83 : Ref sig .tc := ⟨.hbm, 109, rfl⟩
abbrev main_v84 : Ref sig .tc := ⟨.hbm, 110, rfl⟩
abbrev main_cst_15 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  shapeCasts_S8192x4096_S8192x4x1024 : S8192x4096.ShapeCasts S8192x4x1024
  reducesTo_S8192x4x1024_S8192x4_d2 : S8192x4x1024.ReducesTo [2] S8192x4
  h_S_ : 0 < S_.numel
  bcast_S8192x4_S8192x4x1_0_1 : S8192x4.BroadcastsInDim S8192x4x1 (![0, 1] : Fin 2 → Fin S8192x4x1.rank)
  bcast_S_S8192x4x1 : S_.BroadcastsInDim S8192x4x1 (![] : Fin 0 → Fin S8192x4x1.rank)
  bcast_S8192x4x1_S8192x4x1024_0_1_2 : S8192x4x1.BroadcastsInDim S8192x4x1024 (![0, 1, 2] : Fin 3 → Fin S8192x4x1024.rank)
  shapeCasts_S8192x4x1024_S8192x4096 : S8192x4x1024.ShapeCasts S8192x4096
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  shapeCasts_S8192x1024_S8192x1x1024 : S8192x1024.ShapeCasts S8192x1x1024
  reducesTo_S8192x1x1024_S8192x1_d2 : S8192x1x1024.ReducesTo [2] S8192x1
  bcast_S8192x1_S8192x1x1_0_1 : S8192x1.BroadcastsInDim S8192x1x1 (![0, 1] : Fin 2 → Fin S8192x1x1.rank)
  bcast_S_S8192x1x1 : S_.BroadcastsInDim S8192x1x1 (![] : Fin 0 → Fin S8192x1x1.rank)
  bcast_S8192x1x1_S8192x1x1024_0_1_2 : S8192x1x1.BroadcastsInDim S8192x1x1024 (![0, 1, 2] : Fin 3 → Fin S8192x1x1024.rank)
  shapeCasts_S8192x1x1024_S8192x1024 : S8192x1x1024.ShapeCasts S8192x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  dot_S8192x1024_S1024x4096_S8192x4096_1_0_0_1_n_n_wf : DotDims.WF S8192x1024 S1024x4096 S8192x4096 [1] [0] [0] [1] [] []

variable [Facts₀]

def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf

class Facts : Prop extends Facts₀ where

variable [Facts]
-- ==== Proof.KernelReads.lean ====
/-
  Where each window's block sits in its array.

  The grid has 64 points. At point `t` the three activation windows (x, h, c) and the two result windows hold rows
  `128·t … 128·t + 127` of their arrays, all 1024 columns; the two weight matrices and the five parameter rows are held whole
  at every point. The arrays the region finds are the arguments themselves for x, h, c, and for the rest what the host
  operations before the region made of the arguments: the weights with their format changed (the identity at the ideal
  values) and each parameter vector re-laid as a one-row matrix.
-/
import proofs.«135775_j81552839017158_1_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Reads

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The printed index maps, decided over the 64 grid points: the row-blocked windows sit at block row `t`, the others at
    block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_10.index t (0 : Fin 2) = t.val ∧ win0_10.index t (1 : Fin 2) = 0
    ∧ win0_11.index t (0 : Fin 2) = t.val ∧ win0_11.index t (1 : Fin 2) = 0 :=
  (by decide +kernel : ∀ t : Fin grid0.N, _)

theorem idx_facts' : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

/-- Row `r` of point `t`'s block is row `128·t + r` of the array. -/
def row (t : Fin cfg0.N) (r : Fin 128) : Fin 8192 :=
  ⟨t.val * 128 + r.val, by have h : t.val < 64 := lt_of_lt_of_eq t.isLt N_0; have := r.isLt; omega⟩

theorem emb0 (t : Fin cfg0.N) (r : Fin 128) (k : Fin 1024) :
    ((cfg0.win 0).blk t).view.emb (ix2 r k) = ix2 (row t r) k := by
  obtain ⟨_, _, _, _, _, _, _, _, _, _⟩ := idx_facts t
  funext a; apply Fin.ext
  match a with
  | ⟨0, _⟩ => show win0_0.index t (0 : Fin 2) * 128 + 1 * r.val = t.val * 128 + r.val; omega
  | ⟨1, _⟩ => show win0_0.index t (1 : Fin 2) * 1024 + 1 * k.val = k.val; omega

theorem emb1 (t : Fin cfg0.N) (r : Fin 128) (k : Fin 1024) :
    ((cfg0.win 1).blk t).view.emb (ix2 r k) = ix2 (row t r) k := by
  obtain ⟨_, _, _, _, _, _, _, _, _, _⟩ := idx_facts t
  funext a; apply Fin.ext
  match a with
  | ⟨0, _⟩ => show win0_1.index t (0 : Fin 2) * 128 + 1 * r.val = t.val * 128 + r.val; omega
  | ⟨1, _⟩ => show win0_1.index t (1 : Fin 2) * 1024 + 1 * k.val = k.val; omega

theorem emb2 (t : Fin cfg0.N) (r : Fin 128) (k : Fin 1024) :
    ((cfg0.win 2).blk t).view.emb (ix2 r k) = ix2 (row t r) k := by
  obtain ⟨_, _, _, _, _, _, _, _, _, _⟩ := idx_facts t
  funext a; apply Fin.ext
  match a with
  | ⟨0, _⟩ => show win0_2.index t (0 : Fin 2) * 128 + 1 * r.val = t.val * 128 + r.val; omega
  | ⟨1, _⟩ => show win0_2.index t (1 : Fin 2) * 1024 + 1 * k.val = k.val; omega

theorem emb10 (t : Fin cfg0.N) (r : Fin 128) (k : Fin 1024) :
    ((cfg0.win 10).blk t).view.emb (ix2 r k) = ix2 (row t r) k := by
  obtain ⟨_, _, _, _, _, _, _, _, _, _⟩ := idx_facts t
  funext a; apply Fin.ext
  match a with
  | ⟨0, _⟩ => show win0_10.index t (0 : Fin 2) * 128 + 1 * r.val = t.val * 128 + r.val; omega
  | ⟨1, _⟩ => show win0_10.index t (1 : Fin 2) * 1024 + 1 * k.val = k.val; omega

theorem emb11 (t : Fin cfg0.N) (r : Fin 128) (k : Fin 1024) :
    ((cfg0.win 11).blk t).view.emb (ix2 r k) = ix2 (row t r) k := by
  obtain ⟨_, _, _, _, _, _, _, _, _, _⟩ := idx_facts t
  funext a; apply Fin.ext
  match a with
  | ⟨0, _⟩ => show win0_11.index t (0 : Fin 2) * 128 + 1 * r.val = t.val * 128 + r.val; omega
  | ⟨1, _⟩ => show win0_11.index t (1 : Fin 2) * 1024 + 1 * k.val = k.val; omega

theorem emb3 (t : Fin cfg0.N) (i : Fin 1024) (q : Fin 4096) :
    ((cfg0.win 3).blk t).view.emb (ix2 i q) = ix2 i q := by
  obtain ⟨_, _, _, _, _, _, _, _, _, _, _, _, _, _⟩ := idx_facts' t
  funext a; apply Fin.ext
  match a with
  | ⟨0, _⟩ => show win0_3.index t (0 : Fin 2) * 1024 + 1 * i.val = i.val; omega
  | ⟨1, _⟩ => show win0_3.index t (1 : Fin 2) * 4096 + 1 * q.val = q.val; omega

theorem emb4 (t : Fin cfg0.N) (i : Fin 1024) (q : Fin 4096) :
    ((cfg0.win 4).blk t).view.emb (ix2 i q) = ix2 i q := by
  obtain ⟨_, _, _, _, _, _, _, _, _, _, _, _, _, _⟩ := idx_facts' t
  funext a; apply Fin.ext
  match a with
  | ⟨0, _⟩ => show win0_4.index t (0 : Fin 2) * 1024 + 1 * i.val = i.val; omega
  | ⟨1, _⟩ => show win0_4.index t (1 : Fin 2) * 4096 + 1 * q.val = q.val; omega

theorem emb5 (t : Fin cfg0.N) (i : Fin 1) (q : Fin 4096) :
    ((cfg0.win 5).blk t).view.emb (ix2 i q) = ix2 i q := by
  obtain ⟨_, _, _, _, _, _, _, _, _, _, _, _, _, _⟩ := idx_facts' t
  funext a; apply Fin.ext
  match a with
  | ⟨0, _⟩ => show win0_5.index t (0 : Fin 2) * 1 + 1 * i.val = i.val; omega
  | ⟨1, _⟩ => show win0_5.index t (1 : Fin 2) * 4096 + 1 * q.val = q.val; omega

theorem emb6 (t : Fin cfg0.N) (i : Fin 1) (q : Fin 4096) :
    ((cfg0.win 6).blk t).view.emb (ix2 i q) = ix2 i q := by
  obtain ⟨_, _, _, _, _, _, _, _, _, _, _, _, _, _⟩ := idx_facts' t
  funext a; apply Fin.ext
  match a with
  | ⟨0, _⟩ => show win0_6.index t (0 : Fin 2) * 1 + 1 * i.val = i.val; omega
  | ⟨1, _⟩ => show win0_6.index t (1 : Fin 2) * 4096 + 1 * q.val = q.val; omega

theorem emb7 (t : Fin cfg0.N) (i : Fin 1) (q : Fin 4096) :
    ((cfg0.win 7).blk t).view.emb (ix2 i q) = ix2 i q := by
  obtain ⟨_, _, _, _, _, _, _, _, _, _, _, _, _, _⟩ := idx_facts' t
  funext a; apply Fin.ext
  match a with
  | ⟨0, _⟩ => show win0_7.index t (0 : Fin 2) * 1 + 1 * i.val = i.val; omega
  | ⟨1, _⟩ => show win0_7.index t (1 : Fin 2) * 4096 + 1 * q.val = q.val; omega

theorem emb8 (t : Fin cfg0.N) (i : Fin 1) (q : Fin 1024) :
    ((cfg0.win 8).blk t).view.emb (ix2 i q) = ix2 i q := by
  obtain ⟨_, _, _, _, _, _, _, _, _, _, _, _, _, _⟩ := idx_facts' t
  funext a; apply Fin.ext
  match a with
  | ⟨0, _⟩ => show win0_8.index t (0 : Fin 2) * 1 + 1 * i.val = i.val; omega
  | ⟨1, _⟩ => show win0_8.index t (1 : Fin 2) * 1024 + 1 * q.val = q.val; omega

theorem emb9 (t : Fin cfg0.N) (i : Fin 1) (q : Fin 1024) :
    ((cfg0.win 9).blk t).view.emb (ix2 i q) = ix2 i q := by
  obtain ⟨_, _, _, _, _, _, _, _, _, _, _, _, _, _⟩ := idx_facts' t
  funext a; apply Fin.ext
  match a with
  | ⟨0, _⟩ => show win0_9.index t (0 : Fin 2) * 1 + 1 * i.val = i.val; omega
  | ⟨1, _⟩ => show win0_9.index t (1 : Fin 2) * 1024 + 1 * q.val = q.val; omega

/-! ## The arrays as the region finds them -/

variable (c : Dev nD)

theorem V_v0 : (V m c main_v0 : FVec Ideal S1024x4096 .bf16) = truncf (F := Ideal) (s := S1024x4096) (φ := .f32) .bf16 (m ((c : Thread nD τ).loc main_arg3)) bitsLt_bf16_f32 := by
  dsimp only [Gen.V, Gen.hostOps0]; after_results
theorem V_v1 : (V m c main_v1 : FVec Ideal S1024x4096 .bf16) = truncf (F := Ideal) (s := S1024x4096) (φ := .f32) .bf16 (m ((c : Thread nD τ).loc main_arg4)) bitsLt_bf16_f32 := by
  dsimp only [Gen.V, Gen.hostOps0]; after_results
theorem V_v2 : (V m c main_v2 : FVec Ideal S1x4096 .f32) = shapeCast S1x4096 (m ((c : Thread nD τ).loc main_arg5) : FVec Ideal S4096 .f32) shapeCasts_S4096_S1x4096 := by
  dsimp only [Gen.V, Gen.hostOps0]; after_results; rfl
theorem V_v3 : (V m c main_v3 : FVec Ideal S1x4096 .f32) = shapeCast S1x4096 (m ((c : Thread nD τ).loc main_arg6) : FVec Ideal S4096 .f32) shapeCasts_S4096_S1x4096 := by
  dsimp only [Gen.V, Gen.hostOps0]; after_results; rfl
theorem V_v4 : (V m c main_v4 : FVec Ideal S1x4096 .f32) = shapeCast S1x4096 (m ((c : Thread nD τ).loc main_arg7) : FVec Ideal S4096 .f32) shapeCasts_S4096_S1x4096 := by
  dsimp only [Gen.V, Gen.hostOps0]; after_results; rfl
theorem V_v5 : (V m c main_v5 : FVec Ideal S1x1024 .f32) = shapeCast S1x1024 (m ((c : Thread nD τ).loc main_arg8) : FVec Ideal S1024 .f32) shapeCasts_S1024_S1x1024 := by
  dsimp only [Gen.V, Gen.hostOps0]; after_results; rfl
theorem V_v6 : (V m c main_v6 : FVec Ideal S1x1024 .f32) = shapeCast S1x1024 (m ((c : Thread nD τ).loc main_arg9) : FVec Ideal S1024 .f32) shapeCasts_S1024_S1x1024 := by
  dsimp only [Gen.V, Gen.hostOps0]; after_results; rfl

/-! ## The blocks at a point, entry by entry -/

variable (t : Fin cfg0.N)

theorem xblk (r : Fin 128) (k : Fin 1024) : iblk m c 0 t (ix2 r k) = m ((c : Thread nD τ).loc main_arg0) (ix2 (row t r) k) :=
  (congrArg (V m c main_arg0) (emb0 t r k)).trans (congrFun (V_main_arg0 m c) _)
theorem hblk (r : Fin 128) (k : Fin 1024) : iblk m c 1 t (ix2 r k) = m ((c : Thread nD τ).loc main_arg2) (ix2 (row t r) k) :=
  (congrArg (V m c main_arg2) (emb1 t r k)).trans (congrFun (V_main_arg2 m c) _)
theorem cblk (r : Fin 128) (k : Fin 1024) : iblk m c 2 t (ix2 r k) = m ((c : Thread nD τ).loc main_arg1) (ix2 (row t r) k) :=
  (congrArg (V m c main_arg1) (emb2 t r k)).trans (congrFun (V_main_arg1 m c) _)
theorem wxblk (k : Fin 1024) (q : Fin 4096) : iblk m c 3 t (ix2 k q) = m ((c : Thread nD τ).loc main_arg3) (ix2 k q) :=
  (congrArg (V m c main_v0) (emb3 t k q)).trans (congrFun (V_v0 m c) _)
theorem whblk (k : Fin 1024) (q : Fin 4096) : iblk m c 4 t (ix2 k q) = m ((c : Thread nD τ).loc main_arg4) (ix2 k q) :=
  (congrArg (V m c main_v1) (emb4 t k q)).trans (congrFun (V_v1 m c) _)
theorem bblk (q : Fin 4096) : iblk m c 5 t (ix2 (0 : Fin 1) q) = m ((c : Thread nD τ).loc main_arg5) (ix1 q) :=
  (congrArg (V m c main_v2) (emb5 t 0 q)).trans ((congrFun (V_v2 m c) _).trans (shapeCast_a_1a_apply _ shapeCasts_S4096_S1x4096 0 q))
theorem gamblk (q : Fin 4096) : iblk m c 6 t (ix2 (0 : Fin 1) q) = m ((c : Thread nD τ).loc main_arg6) (ix1 q) :=
  (congrArg (V m c main_v3) (emb6 t 0 q)).trans ((congrFun (V_v3 m c) _).trans (shapeCast_a_1a_apply _ shapeCasts_S4096_S1x4096 0 q))
theorem betblk (q : Fin 4096) : iblk m c 7 t (ix2 (0 : Fin 1) q) = m ((c : Thread nD τ).loc main_arg7) (ix1 q) :=
  (congrArg (V m c main_v4) (emb7 t 0 q)).trans ((congrFun (V_v4 m c) _).trans (shapeCast_a_1a_apply _ shapeCasts_S4096_S1x4096 0 q))
theorem gcblk (j : Fin 1024) : iblk m c 8 t (ix2 (0 : Fin 1) j) = m ((c : Thread nD τ).loc main_arg8) (ix1 j) :=
  (congrArg (V m c main_v5) (emb8 t 0 j)).trans ((congrFun (V_v5 m c) _).trans (shapeCast_a_1a_apply _ shapeCasts_S1024_S1x1024 0 j))
theorem bcblk (j : Fin 1024) : iblk m c 9 t (ix2 (0 : Fin 1) j) = m ((c : Thread nD τ).loc main_arg9) (ix1 j) :=
  (congrArg (V m c main_v6) (emb9 t 0 j)).trans ((congrFun (V_v6 m c) _).trans (shapeCast_a_1a_apply _ shapeCasts_S1024_S1x1024 0 j))

/-- A load of 1024 columns from column `o` of a one-row block reads the block at column `o + j`. -/
theorem ld_cols {Val : EltTy → Type} {e : EltTy} (X : S1x4096.Idx → Val e) (o : ℕ) (inb : ∀ a, (![0, o] : Fin 2 → Nat) a + S1x1024.size a ≤ S1x4096.size a)
    (j : Fin 1024) (q : Fin 4096) (hq : q.val = o + j.val) :
    View.ld X (Rect.unit (s := S1x4096) ![0, o] S1x1024.size inb) (ix2 (0 : Fin 1) j) = X (ix2 (0 : Fin 1) q) := by
  show X _ = X _
  refine congrArg X (funext fun a => Fin.ext ?_)
  match a with
  | ⟨0, _⟩ => rfl
  | ⟨1, _⟩ => show o + 1 * j.val = q.val; omega

end Cert.KernelIdeal.Reads

end
-- ==== Proof.KernelTree.lean ====
/-
  The kernel body's arithmetic as a small tree.

  Per grid point the body computes, on a block of 128 rows: the 128 × 4096 pre-activations `pre` (two products into a zero
  accumulator, summed, plus the bias row), then four times the same thing on a 128 × 1024 column slice of `pre` — centre each
  row on its mean, scale by the inverse root of variance + ε, multiply by a scale row and add a shift row — then the cell
  update, once more the same normalisation on the new cell state, and the output gate. The payload terms repeat that
  normalisation five times over; here it is named once (`normV`, `affV`), and each payload is that tree by unfolding.
-/
import proofs.«135775_j81552839017158_1_alg».proof.Proof.Gen.KernelIdeal.Skeleton

noncomputable section

namespace Cert.KernelIdeal.Body

open Cert.KernelIdeal Cert.KernelIdeal.Gen Idealize.ShloMosaic

variable {F : FTy → Type} [FloatOps F]

/-- Row sums of a 128 × 1024 block, as a column. -/
def sumV (v : FVec F S128x1024 .f32) : FVec F S128x1 .f32 :=
  shapeCast S128x1 (multiReduction .add [1] S128 v 0x00000000#32 reduces_S128x1024_S128 (.inl rfl) rfl) shapeCasts_S128_S128x1

/-- Row means, as a column. -/
def meanV (v : FVec F S128x1024 .f32) : FVec F S128x1 .f32 :=
  divf (sumV v) (broadcast S128x1 (Scalar.ofBits .f32 0x44800000#32))

/-- The block with each row centred on its mean. -/
def centV (v : FVec F S128x1024 .f32) : FVec F S128x1024 .f32 :=
  subf v (broadcastTo S128x1024 (meanV v) broadcasts_S128x1_S128x1024)

/-- The block with each row centred and scaled by the inverse root of its variance plus ε. -/
def normV (v : FVec F S128x1024 .f32) : FVec F S128x1024 .f32 :=
  mulf (centV v) (broadcastTo S128x1024 (rsqrt (addf (divf (sumV (mulf (centV v) (centV v))) (broadcast S128x1 (Scalar.ofBits .f32 0x44800000#32)))
    (broadcast S128x1 (Scalar.ofBits .f32 0x3A83126F#32)))) broadcasts_S128x1_S128x1024)

/-- A block scaled column by column by one row and shifted by another. -/
def affV (g b : Vec F S1x1024 .f32) (v : FVec F S128x1024 .f32) : FVec F S128x1024 .f32 :=
  addf (mulf (broadcastTo S128x1024 (shapeCast S1x1024 g shapeCasts_S1x1024_S1x1024) broadcasts_S1x1024_S128x1024) v)
    (broadcastTo S128x1024 (shapeCast S1x1024 b shapeCasts_S1x1024_S1x1024) broadcasts_S1x1024_S128x1024)

/-- The pre-activations of a block. -/
def preV (xb hb : Vec F S128x1024 .f32) (wx wh : Vec F S1024x4096 .bf16) (b : Vec F S1x4096 .f32) : FVec F S128x4096 .f32 :=
  k0_pay3 xb hb wx wh b

/-- Gate 0 (columns 0 … 1023), normalised, scaled and shifted. -/
theorem gate0_tree (xb hb : Vec F S128x1024 .f32) (wx wh : Vec F S1024x4096 .bf16) (b : Vec F S1x4096 .f32) (g0 b0 : Vec F S1x1024 .f32) :
    k0_pay7 (k0_pay4 g0) (k0_pay5 b0) (k0_pay6 xb hb wx wh b)
      = affV g0 b0 (normV (extractStridedSlice S128x1024 ![0, 0] (preV xb hb wx wh b) slices_S128x4096_o0_0_S128x1024)) := rfl

/-- Gate 1 (columns 1024 … 2047). -/
theorem gate1_tree (v14 : FVec F S128x4096 .f32) (g1 b1 : Vec F S1x1024 .f32) :
    k0_pay8 v14 g1 b1 = affV g1 b1 (normV (extractStridedSlice S128x1024 ![0, 1024] v14 slices_S128x4096_o0_1024_S128x1024)) := rfl

/-- Gate 3 (columns 3072 … 4095). -/
theorem gate3_tree (v14 : FVec F S128x4096 .f32) (g3 b3 : Vec F S1x1024 .f32) :
    k0_pay14 v14 g3 b3 = affV g3 b3 (normV (extractStridedSlice S128x1024 ![0, 3072] v14 slices_S128x4096_o0_3072_S128x1024)) := rfl

/-- The old cell state times the logistic of gate 2 (columns 2048 … 3071) plus one. -/
theorem forget_tree (v14 : FVec F S128x4096 .f32) (g2 b2 : Vec F S1x1024 .f32) (cb : Vec F S128x1024 .f32) :
    k0_pay15 (k0_pay9 v14) (k0_pay10 g2) (k0_pay11 b2) (k0_pay12 v14) (k0_pay13 v14) cb
      = mulf cb (logistic (addf (affV g2 b2 (normV (extractStridedSlice S128x1024 ![0, 2048] v14 slices_S128x4096_o0_2048_S128x1024)))
          (broadcast S128x1024 (Scalar.ofBits .f32 0x3F800000#32)))) := rfl

/-- The new cell state from the gates. -/
theorem cell_tree (i j f : FVec F S128x1024 .f32) : k0_pay1 i j f = addf f (mulf (logistic i) (tanh j)) := rfl

/-- The new hidden state from the new cell state and the output gate. -/
theorem hidden_tree (i j o f : FVec F S128x1024 .f32) (gc bc : Vec F S1x1024 .f32) :
    k0_pay2 i j o f gc bc = mulf (tanh (affV gc bc (normV (k0_pay1 i j f)))) (logistic o) := rfl

end Cert.KernelIdeal.Body

end
-- ==== Proof.Spec.lean ====
/-
  The function both programs compute, written once over the extended reals.

  An LSTM cell with layer normalisation. With `x, h, c : 8192 × 1024`, weights `wx, wh : 1024 × 4096`, a bias and two
  pairs of scale / shift rows:
    pre    = x · wx + h · wh + bias                                  (8192 × 4096: four gates side by side, 1024 columns each)
    gate g = γ_g · norm (pre restricted to gate g's columns) + β_g  (g = 0 … 3: input, candidate, forget, output)
    c'     = c · σ (gate 2 + 1) + σ (gate 0) · tanh (gate 1)
    h'     = tanh (γc · norm c' + βc) · σ (gate 3)
  where `norm` centres a row of 1024 entries on its mean and scales it by `(variance + ε)^(-1/2)`, and σ is the logistic
  function. Every operation is the exact one on the extended reals; the three float literals (1024, ε = f32 1e-3, 1) are
  kept as the words both programs print, so none is ever evaluated except the 1 inside σ.
-/
import Idealize.ShloMosaic.PureOps.Ideal.Laws
import Idealize.ShloMosaic.Lib.ValueIdx

noncomputable section

namespace Cert.Lstm

open Idealize.ShloMosaic Idealize.ShloMosaic.ValueIdx

/-- A matrix / a row of extended reals over the library's index types. -/
abbrev Mat (a b : ℕ) := (⟨2, ![a, b]⟩ : Shape).Idx → EReal
abbrev Row (a : ℕ) := (⟨1, ![a]⟩ : Shape).Idx → EReal

/-- The row length as both programs write it (the f32 word of 1024). -/
def len : EReal := Ideal.ofBits .f32 0x44800000#32
/-- The variance offset as both programs write it (the f32 word nearest 1e-3). -/
def eps : EReal := Ideal.ofBits .f32 0x3A83126F#32
/-- The forget-gate offset as both programs write it (the f32 word of 1). -/
def one : EReal := Ideal.ofBits .f32 0x3F800000#32

/-- The mean of a row of 1024 entries. -/
def mean (row : Fin 1024 → EReal) : EReal := Ideal.div (∑ k : Fin 1024, row k) len

/-- A row centred on its mean and scaled by the inverse square root of its variance plus ε, at entry `j`. -/
def norm (row : Fin 1024 → EReal) (j : Fin 1024) : EReal :=
  (row j - mean row) * Ideal.rsqrt (Ideal.div (∑ k : Fin 1024, (row k - mean row) * (row k - mean row)) len + eps)

/-- Column `j` of gate `g` among the 4096 columns. -/
def col (g : Fin 4) (j : Fin 1024) : Fin 4096 := ⟨g.val * 1024 + j.val, by have := g.isLt; have := j.isLt; omega⟩

theorem col_val (g : Fin 4) (j : Fin 1024) : (col g j).val = g.val * 1024 + j.val := rfl

section
variable (x c h : Mat 8192 1024) (wx wh : Mat 1024 4096) (b gam bet : Row 4096) (gc bc : Row 1024)

/-- The four gates' pre-activations: both products and the bias. -/
def pre (p : Fin 8192) (q : Fin 4096) : EReal :=
  ((∑ k : Fin 1024, x (ix2 p k) * wx (ix2 k q)) + ∑ k : Fin 1024, h (ix2 p k) * wh (ix2 k q)) + b (ix1 q)

/-- Gate `g`, normalised over its own 1024 columns, scaled and shifted. -/
def gate (g : Fin 4) (p : Fin 8192) (j : Fin 1024) : EReal :=
  gam (ix1 (col g j)) * norm (fun k => pre x h wx wh b p (col g k)) j + bet (ix1 (col g j))

/-- The new cell state. -/
def newC (p : Fin 8192) (j : Fin 1024) : EReal :=
  c (ix2 p j) * Ideal.logistic (gate x h wx wh b gam bet 2 p j + one)
    + Ideal.logistic (gate x h wx wh b gam bet 0 p j) * Ideal.tanh (gate x h wx wh b gam bet 1 p j)

/-- The new hidden state. -/
def newH (p : Fin 8192) (j : Fin 1024) : EReal :=
  Ideal.tanh (gc (ix1 j) * norm (fun k => newC x c h wx wh b gam bet p k) j + bc (ix1 j))
    * Ideal.logistic (gate x h wx wh b gam bet 3 p j)

/-- The two results as arrays. -/
def outC : Mat 8192 1024 := fun i => newC x c h wx wh b gam bet (i 0) (i 1)
def outH : Mat 8192 1024 := fun i => newH x c h wx wh b gam bet gc bc (i 0) (i 1)

theorem outC_apply (p : Fin 8192) (j : Fin 1024) : outC x c h wx wh b gam bet (ix2 p j) = newC x c h wx wh b gam bet p j := rfl
theorem outH_apply (p : Fin 8192) (j : Fin 1024) : outH x c h wx wh b gam bet gc bc (ix2 p j) = newH x c h wx wh b gam bet gc bc p j := rfl

end

/-- The word of 1 denotes 1. -/
theorem one_eq : one = 1 := by
  unfold one; simp [Ideal.ofBits, Ideal.ieee, -EReal.coe_mul]; norm_num

/-- The word of 0 denotes 0. -/
theorem zero_word : Ideal.ofBits .f32 0x00000000#32 = 0 := Ideal.ofBits_zero_f32

end Cert.Lstm

end
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.KernelAt.lean ====
/-
  The kernel body's tree read entry by entry, at the ideal values.

  A row sum is a sum over the row's 1024 entries, so the normalised block at `(r, j)` is `Lstm.norm` of row `r` at `j`;
  a product into the zero accumulator at `(r, q)` is the sum over `k` of the two factors; a column slice reads its source
  shifted by the slice's offset; a row broadcast over the block reads the row at the column.
-/
import proofs.«135775_j81552839017158_1_alg».proof.Proof.KernelTree
import proofs.«135775_j81552839017158_1_alg».proof.Proof.Spec
import proofs.«135775_j81552839017158_1_alg».proof.Proof.LibDot
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx

/-- A row sum of a block, at row `r`. -/
theorem sumV_apply (v : FVec Ideal S128x1024 .f32) (r : Fin 128) :
    sumV v (ix2 r (0 : Fin 1)) = ∑ k : Fin 1024, v (ix2 r k) := by
  unfold sumV
  refine (shapeCast_apply _ shapeCasts_S128_S128x1 (ix2 r (0 : Fin 1)) (ix1 r) ?_).trans ?_
  · rw [Shape.rowMajor_val_one, Shape.rowMajor_val_two]
    show r.val = r.val * 1 + 0
    omega
  · refine (Ideal.multiReduction_add_single v 0x00000000#32 reduces_S128x1024_S128 (.inl rfl) rfl (ix1 r)).trans ?_
    refine Finset.sum_congr rfl fun k _ => congrArg v ?_
    funext a
    apply Fin.ext
    match a with
    | ⟨0, _⟩ => rfl
    | ⟨1, _⟩ => rfl

/-- A column broadcast along the rows reads the column at the row. -/
theorem bcol_apply (w : FVec Ideal S128x1 .f32) (r : Fin 128) (j : Fin 1024) :
    broadcastTo S128x1024 w broadcasts_S128x1_S128x1024 (ix2 r j) = w (ix2 r (0 : Fin 1)) := by
  refine broadcastTo_apply w broadcasts_S128x1_S128x1024 (ix2 r j) (ix2 r (0 : Fin 1)) fun a => ?_
  match a with
  | ⟨0, _⟩ => rfl
  | ⟨1, _⟩ => rfl

/-- A row broadcast down the block reads the row at the column. -/
theorem brow_apply (g : FVec Ideal S1x1024 .f32) (r : Fin 128) (j : Fin 1024) :
    broadcastTo S128x1024 (shapeCast S1x1024 g shapeCasts_S1x1024_S1x1024) broadcasts_S1x1024_S128x1024 (ix2 r j)
      = g (ix2 (0 : Fin 1) j) := by
  rw [shapeCast_self]
  exact broadcastTo_1b_ab_apply g broadcasts_S1x1024_S128x1024 r j

/-- The mean column of a block, at row `r`. -/
theorem meanV_apply (v : FVec Ideal S128x1024 .f32) (r : Fin 128) :
    meanV v (ix2 r (0 : Fin 1)) = Lstm.mean fun k => v (ix2 r k) := by
  show Ideal.div (sumV v (ix2 r (0 : Fin 1))) Lstm.len = Lstm.mean _
  rw [sumV_apply]
  rfl

/-- The centred block, at `(r, j)`. -/
theorem centV_apply (v : FVec Ideal S128x1024 .f32) (r : Fin 128) (j : Fin 1024) :
    centV v (ix2 r j) = v (ix2 r j) - Lstm.mean fun k => v (ix2 r k) := by
  show v (ix2 r j) - broadcastTo S128x1024 (meanV v) broadcasts_S128x1_S128x1024 (ix2 r j) = _
  rw [bcol_apply, meanV_apply]

/-- The normalised block, at `(r, j)`: the row's normalisation at `j`. -/
theorem normV_apply (v : FVec Ideal S128x1024 .f32) (r : Fin 128) (j : Fin 1024) :
    normV v (ix2 r j) = Lstm.norm (fun k => v (ix2 r k)) j := by
  show centV v (ix2 r j) * broadcastTo S128x1024 (rsqrt (addf (divf (sumV (mulf (centV v) (centV v)))
      (broadcast S128x1 (Scalar.ofBits .f32 0x44800000#32))) (broadcast S128x1 (Scalar.ofBits .f32 0x3A83126F#32))))
      broadcasts_S128x1_S128x1024 (ix2 r j) = _
  rw [bcol_apply, centV_apply]
  show _ * Ideal.rsqrt (Ideal.div (sumV (mulf (centV v) (centV v)) (ix2 r (0 : Fin 1))) Lstm.len + Lstm.eps) = _
  rw [sumV_apply]
  simp only [mulf_apply, centV_apply]
  rfl

/-- The scaled and shifted block, at `(r, j)`. -/
theorem affV_apply (g b : FVec Ideal S1x1024 .f32) (v : FVec Ideal S128x1024 .f32) (r : Fin 128) (j : Fin 1024) :
    affV g b v (ix2 r j) = g (ix2 (0 : Fin 1) j) * v (ix2 r j) + b (ix2 (0 : Fin 1) j) := by
  show broadcastTo S128x1024 (shapeCast S1x1024 g shapeCasts_S1x1024_S1x1024) broadcasts_S1x1024_S128x1024 (ix2 r j) * v (ix2 r j)
    + broadcastTo S128x1024 (shapeCast S1x1024 b shapeCasts_S1x1024_S1x1024) broadcasts_S1x1024_S128x1024 (ix2 r j) = _
  rw [brow_apply, brow_apply]

/-- The printed dimension record is the plain rows-by-columns one. -/
theorem dot_eq : dot_S128x1024_S1024x4096_S128x4096_1_0_0_1_n_n = DotDims.plain 128 1024 4096 := rfl

/-- The pre-activations of a block, at `(r, q)`. -/
theorem preV_apply (xb hb : FVec Ideal S128x1024 .f32) (wx wh : FVec Ideal S1024x4096 .bf16) (b : FVec Ideal S1x4096 .f32)
    (r : Fin 128) (q : Fin 4096) :
    preV xb hb wx wh b (ix2 r q)
      = ((∑ k : Fin 1024, xb (ix2 r k) * wx (ix2 k q)) + ∑ k : Fin 1024, hb (ix2 r k) * wh (ix2 k q)) + b (ix2 (0 : Fin 1) q) := by
  unfold preV k0_pay3
  simp only [addf_apply]
  rw [dot_eq, shapeCast_self, shapeCast_self, shapeCast_self]
  exact congrArg₂ (· + ·) (congrArg₂ (· + ·)
      (Cert.GNN.matmul_plain_zero_apply none (truncf .bf16 xb bitsLt_bf16_f32) wx r q)
      (Cert.GNN.matmul_plain_zero_apply none (truncf .bf16 hb bitsLt_bf16_f32) wh r q))
    (broadcastTo_1b_ab_apply b broadcasts_S1x4096_S128x4096 r q)

end Cert.KernelIdeal.Body

end
-- ==== Proof.KernelCell.lean ====
/-
  One row of a block against one row of the whole arrays.

  If row `r` of the activation blocks is row `p` of the arrays, the weight blocks are the weight arrays, and the parameter
  rows the body loads are the parameter vectors at each gate's own columns, then the body's two stored values at `(r, j)`
  are the new cell state and the new hidden state of row `p` at `j`: each gate's slice of the block's pre-activations is
  the row's pre-activations at that gate's columns, and the rest is the same operations in the same order.
-/
import proofs.«135775_j81552839017158_1_alg».proof.Proof.KernelAt

noncomputable section

namespace Cert.KernelIdeal.Body

open Cert.KernelIdeal Cert.KernelIdeal.Gen Idealize.ShloMosaic Idealize.ShloMosaic.ValueIdx

section
variable (x c h : Lstm.Mat 8192 1024) (wx wh : Lstm.Mat 1024 4096) (bias gam bet : Lstm.Row 4096) (gc bc : Lstm.Row 1024)
variable (xb hb cb : FVec Ideal S128x1024 .f32) (wxb whb : FVec Ideal S1024x4096 .bf16) (bb : FVec Ideal S1x4096 .f32)
variable (p : Fin 8192) (r : Fin 128)
variable (hx : ∀ k : Fin 1024, xb (ix2 r k) = x (ix2 p k)) (hh : ∀ k : Fin 1024, hb (ix2 r k) = h (ix2 p k))
variable (hwx : ∀ (k : Fin 1024) (q : Fin 4096), wxb (ix2 k q) = wx (ix2 k q))
variable (hwh : ∀ (k : Fin 1024) (q : Fin 4096), whb (ix2 k q) = wh (ix2 k q))
variable (hbias : ∀ q : Fin 4096, bb (ix2 (0 : Fin 1) q) = bias (ix1 q))

include hx hh hwx hwh hbias in
/-- The block's pre-activations in row `r` are the arrays' in row `p`. -/
theorem preV_row (q : Fin 4096) : preV (F := Ideal) xb hb wxb whb bb (ix2 r q) = Lstm.pre x h wx wh bias p q := by
  rw [preV_apply]
  unfold Lstm.pre
  simp only [hx, hh, hwx, hwh, hbias]

include hx hh hwx hwh hbias in
/-- A gate of the block at `(r, j)`: the slice at the gate's columns, normalised, scaled and shifted. -/
theorem gateV_row (g : Fin 4) (o : ℕ) (ho : o = g.val * 1024) (hs : S128x4096.Slices ![0, o] S128x1024)
    (gg sg : FVec Ideal S1x1024 .f32)
    (hgg : ∀ j : Fin 1024, gg (ix2 (0 : Fin 1) j) = gam (ix1 (Lstm.col g j)))
    (hsg : ∀ j : Fin 1024, sg (ix2 (0 : Fin 1) j) = bet (ix1 (Lstm.col g j))) (j : Fin 1024) :
    affV (F := Ideal) gg sg (normV (extractStridedSlice S128x1024 ![0, o] (preV (F := Ideal) xb hb wxb whb bb) hs)) (ix2 r j)
      = Lstm.gate x h wx wh bias gam bet g p j := by
  have e : (fun k : Fin 1024 => extractStridedSlice S128x1024 ![0, o] (preV (F := Ideal) xb hb wxb whb bb) hs (ix2 r k))
      = fun k => Lstm.pre x h wx wh bias p (Lstm.col g k) := by
    funext k
    rw [slice2_axis1_apply o (preV (F := Ideal) xb hb wxb whb bb) hs r k (Lstm.col g k) (by show g.val * 1024 + k.val = o + k.val; omega)]
    exact preV_row x h wx wh bias xb hb wxb whb bb p r hx hh hwx hwh hbias _
  rw [affV_apply, normV_apply, hgg, hsg, e]
  rfl

variable (g0 s0 g1 s1 g2 s2 g3 s3 : FVec Ideal S1x1024 .f32)
variable (hg0 : ∀ j : Fin 1024, g0 (ix2 (0 : Fin 1) j) = gam (ix1 (Lstm.col 0 j))) (hs0 : ∀ j : Fin 1024, s0 (ix2 (0 : Fin 1) j) = bet (ix1 (Lstm.col 0 j)))
variable (hg1 : ∀ j : Fin 1024, g1 (ix2 (0 : Fin 1) j) = gam (ix1 (Lstm.col 1 j))) (hs1 : ∀ j : Fin 1024, s1 (ix2 (0 : Fin 1) j) = bet (ix1 (Lstm.col 1 j)))
variable (hg2 : ∀ j : Fin 1024, g2 (ix2 (0 : Fin 1) j) = gam (ix1 (Lstm.col 2 j))) (hs2 : ∀ j : Fin 1024, s2 (ix2 (0 : Fin 1) j) = bet (ix1 (Lstm.col 2 j)))
variable (hg3 : ∀ j : Fin 1024, g3 (ix2 (0 : Fin 1) j) = gam (ix1 (Lstm.col 3 j))) (hs3 : ∀ j : Fin 1024, s3 (ix2 (0 : Fin 1) j) = bet (ix1 (Lstm.col 3 j)))
variable (hc : ∀ j : Fin 1024, cb (ix2 r j) = c (ix2 p j))

/-- The value the body stores to the cell-state window, as the skeleton spells it. -/
abbrev cellPay : FVec Ideal S128x1024 .f32 :=
  k0_pay1 (k0_pay7 (k0_pay4 g0) (k0_pay5 s0) (k0_pay6 xb hb wxb whb bb)) (k0_pay8 (k0_pay3 xb hb wxb whb bb) g1 s1)
    (k0_pay15 (k0_pay9 (k0_pay3 xb hb wxb whb bb)) (k0_pay10 g2) (k0_pay11 s2) (k0_pay12 (k0_pay3 xb hb wxb whb bb)) (k0_pay13 (k0_pay3 xb hb wxb whb bb)) cb)

include hx hh hwx hwh hbias hg0 hs0 hg1 hs1 hg2 hs2 hc in
/-- The stored cell state at `(r, j)` is the new cell state of row `p` at `j`. -/
theorem cellPay_row (j : Fin 1024) :
    cellPay xb hb cb wxb whb bb g0 s0 g1 s1 g2 s2 (ix2 r j) = Lstm.newC x c h wx wh bias gam bet p j := by
  unfold cellPay
  rw [cell_tree, gate0_tree, gate1_tree, forget_tree]
  show cb (ix2 r j) * Ideal.logistic (affV (F := Ideal) g2 s2 (normV (extractStridedSlice S128x1024 ![0, 2048] (preV (F := Ideal) xb hb wxb whb bb) slices_S128x4096_o0_2048_S128x1024)) (ix2 r j) + Lstm.one)
      + Ideal.logistic (affV (F := Ideal) g0 s0 (normV (extractStridedSlice S128x1024 ![0, 0] (preV (F := Ideal) xb hb wxb whb bb) slices_S128x4096_o0_0_S128x1024)) (ix2 r j))
        * Ideal.tanh (affV (F := Ideal) g1 s1 (normV (extractStridedSlice S128x1024 ![0, 1024] (preV (F := Ideal) xb hb wxb whb bb) slices_S128x4096_o0_1024_S128x1024)) (ix2 r j)) = _
  rw [gateV_row x h wx wh bias gam bet xb hb wxb whb bb p r hx hh hwx hwh hbias 2 2048 rfl _ g2 s2 hg2 hs2,
    gateV_row x h wx wh bias gam bet xb hb wxb whb bb p r hx hh hwx hwh hbias 0 0 rfl _ g0 s0 hg0 hs0,
    gateV_row x h wx wh bias gam bet xb hb wxb whb bb p r hx hh hwx hwh hbias 1 1024 rfl _ g1 s1 hg1 hs1, hc]
  rfl

variable (gcb bcb : FVec Ideal S1x1024 .f32)
variable (hgc : ∀ j : Fin 1024, gcb (ix2 (0 : Fin 1) j) = gc (ix1 j)) (hbc : ∀ j : Fin 1024, bcb (ix2 (0 : Fin 1) j) = bc (ix1 j))

/-- The value the body stores to the hidden-state window, as the skeleton spells it. -/
abbrev hiddenPay : FVec Ideal S128x1024 .f32 :=
  k0_pay2 (k0_pay7 (k0_pay4 g0) (k0_pay5 s0) (k0_pay6 xb hb wxb whb bb)) (k0_pay8 (k0_pay3 xb hb wxb whb bb) g1 s1)
    (k0_pay14 (k0_pay3 xb hb wxb whb bb) g3 s3)
    (k0_pay15 (k0_pay9 (k0_pay3 xb hb wxb whb bb)) (k0_pay10 g2) (k0_pay11 s2) (k0_pay12 (k0_pay3 xb hb wxb whb bb)) (k0_pay13 (k0_pay3 xb hb wxb whb bb)) cb)
    gcb bcb

include hx hh hwx hwh hbias hg0 hs0 hg1 hs1 hg2 hs2 hg3 hs3 hc hgc hbc in
/-- The stored hidden state at `(r, j)` is the new hidden state of row `p` at `j`. -/
theorem hiddenPay_row (j : Fin 1024) :
    hiddenPay xb hb cb wxb whb bb g0 s0 g1 s1 g2 s2 g3 s3 gcb bcb (ix2 r j) = Lstm.newH x c h wx wh bias gam bet gc bc p j := by
  unfold hiddenPay
  rw [hidden_tree, gate3_tree]
  show Ideal.tanh (affV (F := Ideal) gcb bcb (normV (cellPay xb hb cb wxb whb bb g0 s0 g1 s1 g2 s2)) (ix2 r j))
      * Ideal.logistic (affV (F := Ideal) g3 s3 (normV (extractStridedSlice S128x1024 ![0, 3072] (preV (F := Ideal) xb hb wxb whb bb) slices_S128x4096_o0_3072_S128x1024)) (ix2 r j)) = _
  have e : (fun k : Fin 1024 => cellPay xb hb cb wxb whb bb g0 s0 g1 s1 g2 s2 (ix2 r k))
      = fun k => Lstm.newC x c h wx wh bias gam bet p k :=
    funext fun k => cellPay_row x c h wx wh bias gam bet xb hb cb wxb whb bb p r hx hh hwx hwh hbias g0 s0 g1 s1 g2 s2 hg0 hs0 hg1 hs1 hg2 hs2 hc k
  rw [gateV_row x h wx wh bias gam bet xb hb wxb whb bb p r hx hh hwx hwh hbias 3 3072 rfl _ g3 s3 hg3 hs3,
    affV_apply, normV_apply, e, hgc, hbc]
  rfl

end

end Cert.KernelIdeal.Body

end
-- ==== Proof.KernelValue.lean ====
/-
  The kernel's two result arrays after the run, as one function of the argument arrays.

  Point `t` writes back rows `128·t … 128·t + 127` of each result; what it writes at `(r, j)` is the new cell state (the new
  hidden state) of row `128·t + r` at `j`, because the blocks it read are those rows of the arguments. The 64 points' blocks
  tile the 8192 rows, so each result array ends as the whole function.
-/
import proofs.«135775_j81552839017158_1_alg».proof.Proof.KernelBlocks
import proofs.«135775_j81552839017158_1_alg».proof.Proof.KernelReads
import proofs.«135775_j81552839017158_1_alg».proof.Proof.KernelCell

set_option maxRecDepth 16384

noncomputable section

namespace Cert.KernelIdeal.Final

open Cert.KernelIdeal Cert.KernelIdeal.Gen Cert.KernelIdeal.Reads Cert.KernelIdeal.Body
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The argument arrays as launched, at their literal types. -/
abbrev aX (c : Dev nD) : Lstm.Mat 8192 1024 := m ((c : Thread nD τ).loc main_arg0)
abbrev aC (c : Dev nD) : Lstm.Mat 8192 1024 := m ((c : Thread nD τ).loc main_arg1)
abbrev aH (c : Dev nD) : Lstm.Mat 8192 1024 := m ((c : Thread nD τ).loc main_arg2)
abbrev aWx (c : Dev nD) : Lstm.Mat 1024 4096 := m ((c : Thread nD τ).loc main_arg3)
abbrev aWh (c : Dev nD) : Lstm.Mat 1024 4096 := m ((c : Thread nD τ).loc main_arg4)
abbrev aB (c : Dev nD) : Lstm.Row 4096 := m ((c : Thread nD τ).loc main_arg5)
abbrev aGam (c : Dev nD) : Lstm.Row 4096 := m ((c : Thread nD τ).loc main_arg6)
abbrev aBet (c : Dev nD) : Lstm.Row 4096 := m ((c : Thread nD τ).loc main_arg7)
abbrev aGc (c : Dev nD) : Lstm.Row 1024 := m ((c : Thread nD τ).loc main_arg8)
abbrev aBc (c : Dev nD) : Lstm.Row 1024 := m ((c : Thread nD τ).loc main_arg9)

/-- The new cell state and the new hidden state of the launched arguments. -/
def specC (c : Dev nD) : Lstm.Mat 8192 1024 :=
  Lstm.outC (aX m c) (aC m c) (aH m c) (aWx m c) (aWh m c) (aB m c) (aGam m c) (aBet m c)
def specH (c : Dev nD) : Lstm.Mat 8192 1024 :=
  Lstm.outH (aX m c) (aC m c) (aH m c) (aWx m c) (aWh m c) (aB m c) (aGam m c) (aBet m c) (aGc m c) (aBc m c)

theorem hz : (![0, 0] : Fin 2 → Nat) = fun _ => 0 := funext fun a => by fin_cases a <;> rfl

/-- The scale row a gate loads: 1024 columns of the scale vector from the gate's first column. -/
theorem gamAt (c : Dev nD) (t : Fin cfg0.N) (g : Fin 4) (o : ℕ) (inb : ∀ a, (![0, o] : Fin 2 → Nat) a + S1x1024.size a ≤ S1x4096.size a)
    (ho : o = g.val * 1024) (j : Fin 1024) :
    View.ld (iblk m c 6 t) (Rect.unit (s := S1x4096) ![0, o] S1x1024.size inb) (ix2 (0 : Fin 1) j) = aGam m c (ix1 (Lstm.col g j)) :=
  (ld_cols (iblk m c 6 t) o inb j (Lstm.col g j) (by rw [Lstm.col_val, ho])).trans (gamblk m c t (Lstm.col g j))

/-- The shift row a gate loads, likewise. -/
theorem betAt (c : Dev nD) (t : Fin cfg0.N) (g : Fin 4) (o : ℕ) (inb : ∀ a, (![0, o] : Fin 2 → Nat) a + S1x1024.size a ≤ S1x4096.size a)
    (ho : o = g.val * 1024) (j : Fin 1024) :
    View.ld (iblk m c 7 t) (Rect.unit (s := S1x4096) ![0, o] S1x1024.size inb) (ix2 (0 : Fin 1) j) = aBet m c (ix1 (Lstm.col g j)) :=
  (ld_cols (iblk m c 7 t) o inb j (Lstm.col g j) (by rw [Lstm.col_val, ho])).trans (betblk m c t (Lstm.col g j))

/-- WHAT POINT `t` WRITES BACK to window 11 is its block of `specC`. -/
theorem flushed11_eq (c : Dev nD) (t : Fin cfg0.N) :
    (dats m 0 c).flushed 11 t = ((cfg0.win 11).blk t).view.read (Elt Ideal) (specC m c) := by
  rw [ValueP.flushed11]
  unfold out0_11
  rw [View.canon_unit_zero hz]
  simp only [View.ld_unit_zero (S := S128x1024) hz, View.ld_unit_zero (S := S1024x4096) hz, View.ld_unit_zero (S := S1x4096) hz, View.ld_unit_zero (S := S1x1024) hz]
  funext y
  obtain ⟨r, j, rfl⟩ : ∃ (r : Fin 128) (j : Fin 1024), y = ix2 r j := ⟨y 0, y 1, eq_ix2 y⟩
  refine Eq.trans ?_ (congrArg (specC m c) (emb11 t r j)).symm
  exact cellPay_row (aX m c) (aC m c) (aH m c) (aWx m c) (aWh m c) (aB m c) (aGam m c) (aBet m c)
    (iblk m c 0 t) (iblk m c 1 t) (iblk m c 2 t) (iblk m c 3 t) (iblk m c 4 t) (iblk m c 5 t) (row t r) r
    (xblk m c t r) (hblk m c t r) (wxblk m c t) (whblk m c t) (bblk m c t)
    (View.ld (iblk m c 6 t) r0_3) (View.ld (iblk m c 7 t) r0_3) (View.ld (iblk m c 6 t) r0_4) (View.ld (iblk m c 7 t) r0_4)
    (View.ld (iblk m c 6 t) r0_5) (View.ld (iblk m c 7 t) r0_5)
    (gamAt m c t 0 0 _ (by decide)) (betAt m c t 0 0 _ (by decide)) (gamAt m c t 1 1024 _ (by decide)) (betAt m c t 1 1024 _ (by decide))
    (gamAt m c t 2 2048 _ (by decide)) (betAt m c t 2 2048 _ (by decide))
    (cblk m c t r) j

/-- An index of the array is in point `t`'s block iff each coordinate is in the block's range on its axis. -/
theorem mem_blk11 (t : Fin cfg0.N) (i : S8192x1024.Idx) :
    i ∈ ((cfg0.win 11).blk t).view.set ↔ ∀ a : Fin 2, win0_11.index t a * S128x1024.size a ≤ (i a).val ∧ (i a).val < win0_11.index t a * S128x1024.size a + S128x1024.size a := by
  show i ∈ ((View.whole main_v7_1).slice (win0_11.rect t)).set ↔ _
  rw [View.set_slice_whole, Rect.mem_set_unit]
  exact Iff.rfl

/-- Every row of the array lies in the block of the point `row / 128`. -/
theorem cover11 (i : S8192x1024.Idx) : ∃ t : Fin cfg0.N, (cfg0.win 11).flush t = true ∧ i ∈ ((cfg0.win 11).blk t).view.set := by
  have hi0 : (i 0).val < 8192 := (i 0).isLt
  have hi1 : (i 1).val < 1024 := (i 1).isLt
  have hN : cfg0.N = 64 := N_0
  refine ⟨⟨(i 0).val / 128, by rw [hN]; omega⟩, flush0_11 _, ?_⟩
  obtain ⟨_, _, _, _, _, _, e0, e1, f0, f1⟩ := idx_facts ⟨(i 0).val / 128, by rw [hN]; omega⟩
  rw [mem_blk11]
  intro a
  match a with
  | ⟨0, _⟩ => show win0_11.index _ (0 : Fin 2) * 128 ≤ (i 0).val ∧ (i 0).val < win0_11.index _ (0 : Fin 2) * 128 + 128
              rw [f0]; show (i 0).val / 128 * 128 ≤ (i 0).val ∧ (i 0).val < (i 0).val / 128 * 128 + 128; omega
  | ⟨1, _⟩ => show win0_11.index _ (1 : Fin 2) * 1024 ≤ (i 1).val ∧ (i 1).val < win0_11.index _ (1 : Fin 2) * 1024 + 1024
              rw [f1]; omega

/-- THE ARRAY after the run. -/
theorem final11 (c : Dev nD) : (dats m 0 c).arrAt 11 cfg0.N = specC m c :=
  (dats m 0 c).arrAt_eq_of_cover 11 (specC m c) (fun t _ => flushed11_eq m c t) cover11

/-- WHAT POINT `t` WRITES BACK to window 10 is its block of `specH`. -/
theorem flushed10_eq (c : Dev nD) (t : Fin cfg0.N) :
    (dats m 0 c).flushed 10 t = ((cfg0.win 10).blk t).view.read (Elt Ideal) (specH m c) := by
  rw [ValueP.flushed10]
  unfold out0_10
  rw [View.canon_unit_zero hz]
  simp only [View.ld_unit_zero (S := S128x1024) hz, View.ld_unit_zero (S := S1024x4096) hz, View.ld_unit_zero (S := S1x4096) hz, View.ld_unit_zero (S := S1x1024) hz]
  funext y
  obtain ⟨r, j, rfl⟩ : ∃ (r : Fin 128) (j : Fin 1024), y = ix2 r j := ⟨y 0, y 1, eq_ix2 y⟩
  refine Eq.trans ?_ (congrArg (specH m c) (emb10 t r j)).symm
  exact hiddenPay_row (aX m c) (aC m c) (aH m c) (aWx m c) (aWh m c) (aB m c) (aGam m c) (aBet m c) (aGc m c) (aBc m c)
    (iblk m c 0 t) (iblk m c 1 t) (iblk m c 2 t) (iblk m c 3 t) (iblk m c 4 t) (iblk m c 5 t) (row t r) r
    (xblk m c t r) (hblk m c t r) (wxblk m c t) (whblk m c t) (bblk m c t)
    (View.ld (iblk m c 6 t) r0_3) (View.ld (iblk m c 7 t) r0_3) (View.ld (iblk m c 6 t) r0_4) (View.ld (iblk m c 7 t) r0_4)
    (View.ld (iblk m c 6 t) r0_5) (View.ld (iblk m c 7 t) r0_5) (View.ld (iblk m c 6 t) r0_6) (View.ld (iblk m c 7 t) r0_6)
    (gamAt m c t 0 0 _ (by decide)) (betAt m c t 0 0 _ (by decide)) (gamAt m c t 1 1024 _ (by decide)) (betAt m c t 1 1024 _ (by decide))
    (gamAt m c t 2 2048 _ (by decide)) (betAt m c t 2 2048 _ (by decide)) (gamAt m c t 3 3072 _ (by decide)) (betAt m c t 3 3072 _ (by decide))
    (cblk m c t r) (iblk m c 8 t) (iblk m c 9 t) (gcblk m c t) (bcblk m c t) j

/-- An index of the array is in point `t`'s block iff each coordinate is in the block's range on its axis. -/
theorem mem_blk10 (t : Fin cfg0.N) (i : S8192x1024.Idx) :
    i ∈ ((cfg0.win 10).blk t).view.set ↔ ∀ a : Fin 2, win0_10.index t a * S128x1024.size a ≤ (i a).val ∧ (i a).val < win0_10.index t a * S128x1024.size a + S128x1024.size a := by
  show i ∈ ((View.whole main_v7_0).slice (win0_10.rect t)).set ↔ _
  rw [View.set_slice_whole, Rect.mem_set_unit]
  exact Iff.rfl

/-- Every row of the array lies in the block of the point `row / 128`. -/
theorem cover10 (i : S8192x1024.Idx) : ∃ t : Fin cfg0.N, (cfg0.win 10).flush t = true ∧ i ∈ ((cfg0.win 10).blk t).view.set := by
  have hi0 : (i 0).val < 8192 := (i 0).isLt
  have hi1 : (i 1).val < 1024 := (i 1).isLt
  have hN : cfg0.N = 64 := N_0
  refine ⟨⟨(i 0).val / 128, by rw [hN]; omega⟩, flush0_10 _, ?_⟩
  obtain ⟨_, _, _, _, _, _, e0, e1, f0, f1⟩ := idx_facts ⟨(i 0).val / 128, by rw [hN]; omega⟩
  rw [mem_blk10]
  intro a
  match a with
  | ⟨0, _⟩ => show win0_10.index _ (0 : Fin 2) * 128 ≤ (i 0).val ∧ (i 0).val < win0_10.index _ (0 : Fin 2) * 128 + 128
              rw [e0]; show (i 0).val / 128 * 128 ≤ (i 0).val ∧ (i 0).val < (i 0).val / 128 * 128 + 128; omega
  | ⟨1, _⟩ => show win0_10.index _ (1 : Fin 2) * 1024 ≤ (i 1).val ∧ (i 1).val < win0_10.index _ (1 : Fin 2) * 1024 + 1024
              rw [e1]; omega

/-- THE ARRAY after the run. -/
theorem final10 (c : Dev nD) : (dats m 0 c).arrAt 10 cfg0.N = specH m c :=
  (dats m 0 c).arrAt_eq_of_cover 10 (specH m c) (fun t _ => flushed10_eq m c t) cover10

/-- The frame run re-posted: each result array at its function of the arguments, the arguments unchanged. -/
theorem run : θ_run defs (onTc (τ := τ) (main (F := Ideal))) ⟨m, fun _ => 0, ρ⟩ fun r => ∀ c : Dev nD,
      r.2.mem ((c : Thread nD τ).loc main_v7_0) = specH m c
      ∧ r.2.mem ((c : Thread nD τ).loc main_v7_1) = specC m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final10 m c), (h c).2.1.trans (final11 m c), (h c).2.2⟩)
    (ValueP.run_blocks m ρ)

end Cert.KernelIdeal.Final

end
-- ==== Proof.RefNorm.lean ====
/-
  The reference's normalisation, read entry by entry at the ideal values.

  The reference re-lays its `8192 × (G·1024)` array as `8192 × G × 1024` and normalises along the last axis: the sum over that
  axis divided by 1024 is the mean, broadcast back and subtracted; the same sum of the squared differences, divided by 1024,
  plus ε, goes through the inverse square root and is broadcast back and multiplied in. With `G = 4` this is the four gates'
  normalisation, with `G = 1` the cell state's. At `(p, g, j)` it is `Lstm.norm` of the 1024 entries `(p, g, ·)` at `j`.
-/
import proofs.«135775_j81552839017158_1_alg».proof.Proof.Spec
import Idealize.ShloMosaic.Lib.Pipeline.Value

noncomputable section

namespace Cert.RefNorm

open Idealize.ShloMosaic Idealize.ShloMosaic.ValueIdx

/-- The three shapes of a grouped normalisation over `G` groups. -/
abbrev T3 (G : ℕ) : Shape := ⟨3, ![8192, G, 1024]⟩
abbrev T2 (G : ℕ) : Shape := ⟨2, ![8192, G]⟩
abbrev T31 (G : ℕ) : Shape := ⟨3, ![8192, G, 1]⟩
abbrev T0 : Shape := ⟨0, ![]⟩

variable {G : ℕ}
variable (hr' : (T3 G).ReducesTo [2] (T2 G)) (hu : 0 < T0.numel)
  (hb2 : (T2 G).BroadcastsInDim (T31 G) (![0, 1] : Fin 2 → Fin (T31 G).rank))
  (hb0 : T0.BroadcastsInDim (T31 G) (![] : Fin 0 → Fin (T31 G).rank))
  (hb3 : (T31 G).BroadcastsInDim (T3 G) (![0, 1, 2] : Fin 3 → Fin (T3 G).rank))

section Defs
variable {F : FTy → Type} [FloatOps F]

/-- The group means, kept as a trailing unit axis. -/
def rMean (A : FVec F (T3 G) .f32) : FVec F (T31 G) .f32 :=
  Host.divf (broadcastInDim (T31 G) ![0, 1] hb2 (Host.reduceAdd A (constant T0 .f32 0x00000000#32) hr' hu))
    (broadcastInDim (T31 G) ![] hb0 (constant T0 .f32 0x44800000#32))

/-- The array with each group centred on its mean. -/
def rCent (A : FVec F (T3 G) .f32) : FVec F (T3 G) .f32 :=
  subf A (broadcastInDim (T3 G) ![0, 1, 2] hb3 (rMean hr' hu hb2 hb0 A))

/-- The array with each group centred and scaled by the inverse root of its variance plus ε. -/
def rNorm (A : FVec F (T3 G) .f32) : FVec F (T3 G) .f32 :=
  mulf (rCent hr' hu hb2 hb0 hb3 A) (broadcastInDim (T3 G) ![0, 1, 2] hb3
    (Host.rsqrt (addf (Host.divf (broadcastInDim (T31 G) ![0, 1] hb2
        (Host.reduceAdd (mulf (rCent hr' hu hb2 hb0 hb3 A) (rCent hr' hu hb2 hb0 hb3 A)) (constant T0 .f32 0x00000000#32) hr' hu))
        (broadcastInDim (T31 G) ![] hb0 (constant T0 .f32 0x44800000#32)))
      (broadcastInDim (T31 G) ![] hb0 (constant T0 .f32 0x3A83126F#32)))))

end Defs

variable (hr : (T3 G).Reduces [2] (T2 G))

include hr in
/-- A sum along the last axis, at group `(p, g)`. -/
theorem rsum_apply (A : FVec Ideal (T3 G) .f32) (p : Fin 8192) (g : Fin G) :
    Host.reduceAdd A (constant (F := Ideal) T0 .f32 0x00000000#32) hr' hu (ix2 p g) = ∑ k : Fin 1024, A (ix3 p g k) := by
  show Ideal.hostReduceAdd hr' A (Ideal.ofBits .f32 0x00000000#32) (ix2 p g) = _
  rw [Ideal.hostReduceAdd_single hr' hr, Ideal.ofBits_zero_f32, zero_add]
  refine Finset.sum_congr rfl fun k _ => congrArg A ?_
  funext a
  apply Fin.ext
  match a with
  | ⟨0, _⟩ => rfl
  | ⟨1, _⟩ => rfl
  | ⟨2, _⟩ => rfl

/-- A per-group value given a trailing unit axis reads the value of the group. -/
theorem unit_apply (w : FVec Ideal (T2 G) .f32) (p : Fin 8192) (g : Fin G) :
    broadcastInDim (T31 G) ![0, 1] hb2 w (ix3 p g (0 : Fin 1)) = w (ix2 p g) := by
  refine broadcastInDim_apply _ hb2 w (ix3 p g (0 : Fin 1)) (ix2 p g) fun a => ?_
  match a with
  | ⟨0, _⟩ => rfl
  | ⟨1, _⟩ =>
    show g.val = if G = 1 then 0 else g.val
    have := g.isLt
    split
    · omega
    · rfl

/-- A per-group value broadcast along the group's 1024 entries reads the value of the group. -/
theorem along_apply (w : FVec Ideal (T31 G) .f32) (p : Fin 8192) (g : Fin G) (j : Fin 1024) :
    broadcastInDim (T3 G) ![0, 1, 2] hb3 w (ix3 p g j) = w (ix3 p g (0 : Fin 1)) := by
  refine broadcastInDim_apply _ hb3 w (ix3 p g j) (ix3 p g (0 : Fin 1)) fun a => ?_
  match a with
  | ⟨0, _⟩ => rfl
  | ⟨1, _⟩ =>
    show g.val = if G = 1 then 0 else g.val
    have := g.isLt
    split
    · omega
    · rfl
  | ⟨2, _⟩ => rfl

include hr in
/-- The group mean. -/
theorem rMean_apply (A : FVec Ideal (T3 G) .f32) (p : Fin 8192) (g : Fin G) :
    rMean hr' hu hb2 hb0 A (ix3 p g (0 : Fin 1)) = Lstm.mean fun k => A (ix3 p g k) := by
  show Ideal.div (broadcastInDim (T31 G) ![0, 1] hb2 (Host.reduceAdd A (constant (F := Ideal) T0 .f32 0x00000000#32) hr' hu) (ix3 p g (0 : Fin 1))) Lstm.len = _
  rw [unit_apply, rsum_apply hr' hu hr]
  rfl

include hr in
/-- The centred array. -/
theorem rCent_apply (A : FVec Ideal (T3 G) .f32) (p : Fin 8192) (g : Fin G) (j : Fin 1024) :
    rCent hr' hu hb2 hb0 hb3 A (ix3 p g j) = A (ix3 p g j) - Lstm.mean fun k => A (ix3 p g k) := by
  show A (ix3 p g j) - broadcastInDim (T3 G) ![0, 1, 2] hb3 (rMean hr' hu hb2 hb0 A) (ix3 p g j) = _
  rw [along_apply, rMean_apply hr' hu hb2 hb0 hr]

include hr in
/-- The normalised array at `(p, g, j)`: the group's normalisation at `j`. -/
theorem rNorm_apply (A : FVec Ideal (T3 G) .f32) (p : Fin 8192) (g : Fin G) (j : Fin 1024) :
    rNorm hr' hu hb2 hb0 hb3 A (ix3 p g j) = Lstm.norm (fun k => A (ix3 p g k)) j := by
  show rCent hr' hu hb2 hb0 hb3 A (ix3 p g j) * broadcastInDim (T3 G) ![0, 1, 2] hb3
    (Host.rsqrt (addf (Host.divf (broadcastInDim (T31 G) ![0, 1] hb2
        (Host.reduceAdd (mulf (rCent hr' hu hb2 hb0 hb3 A) (rCent hr' hu hb2 hb0 hb3 A)) (constant (F := Ideal) T0 .f32 0x00000000#32) hr' hu))
        (broadcastInDim (T31 G) ![] hb0 (constant (F := Ideal) T0 .f32 0x44800000#32)))
      (broadcastInDim (T31 G) ![] hb0 (constant (F := Ideal) T0 .f32 0x3A83126F#32)))) (ix3 p g j) = _
  rw [along_apply, rCent_apply hr' hu hb2 hb0 hb3 hr]
  show _ * Ideal.rsqrt (Ideal.div (broadcastInDim (T31 G) ![0, 1] hb2
        (Host.reduceAdd (mulf (rCent hr' hu hb2 hb0 hb3 A) (rCent hr' hu hb2 hb0 hb3 A)) (constant (F := Ideal) T0 .f32 0x00000000#32) hr' hu) (ix3 p g (0 : Fin 1))) Lstm.len + Lstm.eps) = _
  rw [unit_apply, rsum_apply hr' hu hr]
  simp only [mulf_apply, rCent_apply hr' hu hb2 hb0 hb3 hr]
  rfl

/-- jax's spelling of the logistic function on the host, `1 / (1 + e^(-v))` with the two ones written as f32 words. -/
theorem sigmoid_word (y : EReal) : Ideal.div Lstm.one (Lstm.one + Ideal.exp (-y)) = Ideal.logistic y := by
  rw [Lstm.one_eq]; rfl

end Cert.RefNorm

end
-- ==== Proof.RefValue.lean ====
/-
  The reference's two results as the function of the arguments, entry by entry.

  The reference computes the pre-activations on the whole `8192 × 4096` array (two products and the bias), normalises them in
  four groups of 1024 columns, scales and shifts, cuts the four gates out by column slices, updates the cell state with
  jax's spelling of the logistic function, normalises the new cell state as one group of 1024, and gates the output. Read at
  `(p, j)` each stage is the specification's: a re-laying reads the same row-major position, a column slice reads its source
  shifted by the offset, and the sums are the same sums.
-/
import proofs.«135775_j81552839017158_1_alg».proof.Proof.Gen.ReferenceIdeal.Run
import proofs.«135775_j81552839017158_1_alg».proof.Proof.RefNorm
import proofs.«135775_j81552839017158_1_alg».proof.Proof.LibDot
import Idealize.ShloMosaic.Lib.ValueLayout

noncomputable section

namespace Cert.ReferenceIdeal.RefValue

open Cert.ReferenceIdeal Cert.ReferenceIdeal.Gen Cert.ReferenceIdeal.Value Cert.RefNorm
open Idealize.ShloMosaic Idealize.ShloMosaic.TcCoe Idealize.SL.Sem Idealize.ShloMosaic.StableHlo Idealize.ShloMosaic.ValueIdx

section Trees
variable {F : FTy → Type} [FloatOps F]

/-- jax's logistic function on the host: one over one plus the exponential of the negation. -/
def rSig (v : FVec F S8192x1024 .f32) : FVec F S8192x1024 .f32 :=
  Host.divf (broadcastInDim S8192x1024 ![] bcast_S_S8192x1024 (constant S_ .f32 0x3F800000#32))
    (addf (broadcastInDim S8192x1024 ![] bcast_S_S8192x1024 (constant S_ .f32 0x3F800000#32)) (Host.exp (Host.negf v)))

/-- A parameter vector of length 4096 laid along every row. -/
def rRow4 (v : FVec F S4096 .f32) : FVec F S8192x4096 .f32 :=
  broadcastInDim S8192x4096 ![0, 1] bcast_S1x4096_S8192x4096_0_1 (broadcastInDim S1x4096 ![1] bcast_S4096_S1x4096_1 v)

/-- A parameter vector of length 1024 laid along every row. -/
def rRow1 (v : FVec F S1024 .f32) : FVec F S8192x1024 .f32 :=
  broadcastInDim S8192x1024 ![0, 1] bcast_S1x1024_S8192x1024_0_1 (broadcastInDim S1x1024 ![1] bcast_S1024_S1x1024_1 v)

variable (V0 : Valuation τ sig (Elt F))

/-- The four gates, normalised in four groups, scaled and shifted: the named stage `main_v31`. -/
theorem v31_tree : res_main_v31 V0 = addf (mulf (rRow4 (V0 (Proc.devRef .tc main_arg6)))
      (shapeCast S8192x4096 (rNorm reducesTo_S8192x4x1024_S8192x4_d2 h_S_ bcast_S8192x4_S8192x4x1_0_1 bcast_S_S8192x4x1
        bcast_S8192x4x1_S8192x4x1024_0_1_2 (res_main_v6 V0)) shapeCasts_S8192x4x1024_S8192x4096))
    (rRow4 (V0 (Proc.devRef .tc main_arg7))) := rfl

/-- Gate `g` cut out of the 4096 columns. -/
def gateT (o : ℕ) (hs : S8192x4096.Slices ![0, o] S8192x1024) : FVec F S8192x1024 .f32 :=
  extractStridedSlice S8192x1024 ![0, o] (res_main_v31 V0) hs

/-- The new cell state as the reference spells it. -/
def cellT : FVec F S8192x1024 .f32 :=
  addf (mulf (V0 (Proc.devRef .tc main_arg1))
      (rSig (addf (gateT V0 2048 slices_S8192x4096_S8192x1024_0_2048) (broadcastInDim S8192x1024 ![] bcast_S_S8192x1024 (constant S_ .f32 0x3F800000#32)))))
    (mulf (rSig (gateT V0 0 slices_S8192x4096_S8192x1024_0_0)) (Host.tanh (gateT V0 1024 slices_S8192x4096_S8192x1024_0_1024)))

/-- The named stage `main_v54` is the new cell state with a unit axis put in. -/
theorem v54_tree : res_main_v54 V0 = shapeCast S8192x1x1024 (cellT V0) shapeCasts_S8192x1024_S8192x1x1024 := rfl

/-- The new hidden state as the reference spells it. -/
def hiddenT : FVec F S8192x1024 .f32 :=
  mulf (Host.tanh (addf (mulf (rRow1 (V0 (Proc.devRef .tc main_arg8)))
      (shapeCast S8192x1024 (rNorm reducesTo_S8192x1x1024_S8192x1_d2 h_S_ bcast_S8192x1_S8192x1x1_0_1 bcast_S_S8192x1x1
        bcast_S8192x1x1_S8192x1x1024_0_1_2 (res_main_v54 V0)) shapeCasts_S8192x1x1024_S8192x1024))
      (rRow1 (V0 (Proc.devRef .tc main_arg9)))))
    (rSig (gateT V0 3072 slices_S8192x4096_S8192x1024_0_3072))

end Trees

variable (V0 : Valuation τ sig (Elt Ideal))

/-- The arguments at their literal types. -/
abbrev aX : Lstm.Mat 8192 1024 := V0 (Proc.devRef .tc main_arg0)
abbrev aC : Lstm.Mat 8192 1024 := V0 (Proc.devRef .tc main_arg1)
abbrev aH : Lstm.Mat 8192 1024 := V0 (Proc.devRef .tc main_arg2)
abbrev aWx : Lstm.Mat 1024 4096 := V0 (Proc.devRef .tc main_arg3)
abbrev aWh : Lstm.Mat 1024 4096 := V0 (Proc.devRef .tc main_arg4)
abbrev aB : Lstm.Row 4096 := V0 (Proc.devRef .tc main_arg5)
abbrev aGam : Lstm.Row 4096 := V0 (Proc.devRef .tc main_arg6)
abbrev aBet : Lstm.Row 4096 := V0 (Proc.devRef .tc main_arg7)
abbrev aGc : Lstm.Row 1024 := V0 (Proc.devRef .tc main_arg8)
abbrev aBc : Lstm.Row 1024 := V0 (Proc.devRef .tc main_arg9)

theorem rSig_apply (v : FVec Ideal S8192x1024 .f32) (i : S8192x1024.Idx) : rSig v i = Ideal.logistic (v i) :=
  sigmoid_word (v i)

theorem rRow4_apply (v : FVec Ideal S4096 .f32) (p : Fin 8192) (q : Fin 4096) : rRow4 v (ix2 p q) = v (ix1 q) := by
  unfold rRow4
  refine (broadcastInDim_apply _ bcast_S1x4096_S8192x4096_0_1 _ (ix2 p q) (ix2 (0 : Fin 1) q) fun a => ?_).trans ?_
  · match a with
    | ⟨0, _⟩ => rfl
    | ⟨1, _⟩ => rfl
  · refine broadcastInDim_apply _ bcast_S4096_S1x4096_1 v (ix2 (0 : Fin 1) q) (ix1 q) fun a => ?_
    match a with
    | ⟨0, _⟩ => rfl

theorem rRow1_apply (v : FVec Ideal S1024 .f32) (p : Fin 8192) (j : Fin 1024) : rRow1 v (ix2 p j) = v (ix1 j) := by
  unfold rRow1
  refine (broadcastInDim_apply _ bcast_S1x1024_S8192x1024_0_1 _ (ix2 p j) (ix2 (0 : Fin 1) j) fun a => ?_).trans ?_
  · match a with
    | ⟨0, _⟩ => rfl
    | ⟨1, _⟩ => rfl
  · refine broadcastInDim_apply _ bcast_S1024_S1x1024_1 v (ix2 (0 : Fin 1) j) (ix1 j) fun a => ?_
    match a with
    | ⟨0, _⟩ => rfl

/-- The printed dimension record is the plain rows-by-columns one. -/
theorem dot_eq : dot_S8192x1024_S1024x4096_S8192x4096_1_0_0_1_n_n = DotDims.plain 8192 1024 4096 := rfl

/-- The pre-activations, re-laid in four groups, at `(p, g, k)`. -/
theorem v6_apply (p : Fin 8192) (g : Fin 4) (k : Fin 1024) :
    res_main_v6 V0 (ix3 p g k) = Lstm.pre (aX V0) (aH V0) (aWx V0) (aWh V0) (aB V0) p (Lstm.col g k) := by
  unfold res_main_v6
  refine (shapeCast_apply _ shapeCasts_S8192x4096_S8192x4x1024 (ix3 p g k) (ix2 p (Lstm.col g k)) ?_).trans ?_
  · rw [Shape.rowMajor_val_two, Shape.rowMajor_val_three]
    show p.val * 4096 + (Lstm.col g k).val = (p.val * 4 + g.val) * 1024 + k.val
    rw [Lstm.col_val]
    have := g.isLt
    omega
  · unfold Lstm.pre
    exact congrArg₂ (· + ·) (congrArg₂ (· + ·)
        (Cert.GNN.dotGeneral_plain_apply none .single (aX V0) (aWx V0) p (Lstm.col g k))
        (Cert.GNN.dotGeneral_plain_apply none .single (aH V0) (aWh V0) p (Lstm.col g k)))
      (rRow4_apply (aB V0) p (Lstm.col g k))

/-- The gates' stage at `(p, column j of gate g)`. -/
theorem v31_apply (p : Fin 8192) (g : Fin 4) (j : Fin 1024) :
    res_main_v31 V0 (ix2 p (Lstm.col g j))
      = Lstm.gate (aX V0) (aH V0) (aWx V0) (aWh V0) (aB V0) (aGam V0) (aBet V0) g p j := by
  rw [v31_tree]
  show rRow4 (F := Ideal) (aGam V0) (ix2 p (Lstm.col g j)) * shapeCast S8192x4096 _ shapeCasts_S8192x4x1024_S8192x4096 (ix2 p (Lstm.col g j))
    + rRow4 (F := Ideal) (aBet V0) (ix2 p (Lstm.col g j)) = _
  rw [rRow4_apply, rRow4_apply, shapeCast_apply _ shapeCasts_S8192x4x1024_S8192x4096 (ix2 p (Lstm.col g j)) (ix3 p g j) (by
      rw [Shape.rowMajor_val_two, Shape.rowMajor_val_three]
      show (p.val * 4 + g.val) * 1024 + j.val = p.val * 4096 + (Lstm.col g j).val
      rw [Lstm.col_val]
      have := g.isLt
      omega),
    rNorm_apply _ _ _ _ _ (by decide)]
  unfold Lstm.gate
  simp only [v6_apply]

/-- A gate cut out by its column slice, at `(p, j)`. -/
theorem gateT_apply (g : Fin 4) (o : ℕ) (ho : o = g.val * 1024) (hs : S8192x4096.Slices ![0, o] S8192x1024) (p : Fin 8192) (j : Fin 1024) :
    gateT V0 o hs (ix2 p j) = Lstm.gate (aX V0) (aH V0) (aWx V0) (aWh V0) (aB V0) (aGam V0) (aBet V0) g p j := by
  unfold gateT
  rw [slice2_axis1_apply o _ hs p j (Lstm.col g j) (by rw [Lstm.col_val, ho])]
  exact v31_apply V0 p g j

/-- The reference's new cell state at `(p, j)`. -/
theorem cellT_apply (p : Fin 8192) (j : Fin 1024) :
    cellT V0 (ix2 p j) = Lstm.newC (aX V0) (aC V0) (aH V0) (aWx V0) (aWh V0) (aB V0) (aGam V0) (aBet V0) p j := by
  show aC V0 (ix2 p j) * rSig (addf (gateT V0 2048 slices_S8192x4096_S8192x1024_0_2048) (broadcastInDim S8192x1024 ![] bcast_S_S8192x1024 (constant (F := Ideal) S_ .f32 0x3F800000#32))) (ix2 p j)
    + rSig (gateT V0 0 slices_S8192x4096_S8192x1024_0_0) (ix2 p j) * Ideal.tanh (gateT V0 1024 slices_S8192x4096_S8192x1024_0_1024 (ix2 p j)) = _
  rw [rSig_apply, rSig_apply, gateT_apply V0 0 0 rfl, gateT_apply V0 1 1024 rfl]
  show _ * Ideal.logistic (gateT V0 2048 slices_S8192x4096_S8192x1024_0_2048 (ix2 p j) + Lstm.one) + _ = _
  rw [gateT_apply V0 2 2048 rfl]
  rfl

theorem cellT_eq : cellT V0 = Lstm.outC (aX V0) (aC V0) (aH V0) (aWx V0) (aWh V0) (aB V0) (aGam V0) (aBet V0) := by
  funext i
  obtain ⟨p, j, rfl⟩ : ∃ (p : Fin 8192) (j : Fin 1024), i = ix2 p j := ⟨i 0, i 1, eq_ix2 i⟩
  exact cellT_apply V0 p j

/-- The named stage `main_v54` at `(p, 0, j)`. -/
theorem v54_apply (p : Fin 8192) (j : Fin 1024) :
    res_main_v54 V0 (ix3 p (0 : Fin 1) j) = Lstm.newC (aX V0) (aC V0) (aH V0) (aWx V0) (aWh V0) (aB V0) (aGam V0) (aBet V0) p j := by
  rw [v54_tree, shapeCast_apply _ shapeCasts_S8192x1024_S8192x1x1024 (ix3 p (0 : Fin 1) j) (ix2 p j) (by
    rw [Shape.rowMajor_val_two, Shape.rowMajor_val_three]
    show p.val * 1024 + j.val = (p.val * 1 + 0) * 1024 + j.val
    omega)]
  exact cellT_apply V0 p j

/-- The reference's new hidden state at `(p, j)`. -/
theorem hiddenT_apply (p : Fin 8192) (j : Fin 1024) :
    hiddenT V0 (ix2 p j) = Lstm.newH (aX V0) (aC V0) (aH V0) (aWx V0) (aWh V0) (aB V0) (aGam V0) (aBet V0) (aGc V0) (aBc V0) p j := by
  show Ideal.tanh (rRow1 (F := Ideal) (aGc V0) (ix2 p j) * shapeCast S8192x1024 _ shapeCasts_S8192x1x1024_S8192x1024 (ix2 p j) + rRow1 (F := Ideal) (aBc V0) (ix2 p j))
    * rSig (gateT V0 3072 slices_S8192x4096_S8192x1024_0_3072) (ix2 p j) = _
  rw [rSig_apply, gateT_apply V0 3 3072 rfl, rRow1_apply, rRow1_apply,
    shapeCast_apply _ shapeCasts_S8192x1x1024_S8192x1024 (ix2 p j) (ix3 p (0 : Fin 1) j) (by
      rw [Shape.rowMajor_val_two, Shape.rowMajor_val_three]
      show (p.val * 1 + 0) * 1024 + j.val = p.val * 1024 + j.val
      omega),
    rNorm_apply _ _ _ _ _ (by decide)]
  unfold Lstm.newH
  simp only [v54_apply]

theorem hiddenT_eq : hiddenT V0 = Lstm.outH (aX V0) (aC V0) (aH V0) (aWx V0) (aWh V0) (aB V0) (aGam V0) (aBet V0) (aGc V0) (aBc V0) := by
  funext i
  obtain ⟨p, j, rfl⟩ : ∃ (p : Fin 8192) (j : Fin 1024), i = ix2 p j := ⟨i 0, i 1, eq_ix2 i⟩
  exact hiddenT_apply V0 p j

end Cert.ReferenceIdeal.RefValue

end
-- ==== Proof.lean ====
/-
  An LSTM cell with layer normalisation, 8192 rows at a time in blocks of 128, against its plain jnp reference.

  Both programs compute, for each row `p`: the pre-activations `x·Wx + h·Wh + bias` (4096 columns, four gates of 1024);
  each gate centred on its own mean, scaled by `(variance + ε)^(-1/2)`, times a scale row plus a shift row; the new cell state
  `c·σ(f + 1) + σ(i)·tanh(j)`; the new cell state normalised the same way over its 1024 entries; and the new hidden state
  `tanh(·)·σ(o)`. The kernel changes the operands of its products to bf16 (the identity at the ideal values), takes its sums
  with the vector unit's reduction and its logistic with one operation; the reference takes host sums and spells the
  logistic as `1 / (1 + e^(-v))`. On the extended reals these are the same operations in the same order — no law of
  arithmetic is needed beyond `0 + s = s` for the sums' initial value, so the finiteness of the inputs is never used. The
  three float literals (1024, ε, 1) are the same words on both sides and are never evaluated, except the 1 of the logistic.

  The specification is `Lstm.outH`, `Lstm.outC` (Proof/Spec.lean). The kernel side: the body's arithmetic as a small tree
  (KernelTree), read entry by entry (KernelAt), one block row against one array row (KernelCell), where the blocks sit
  in the arrays (KernelReads), and the 64 blocks tiling each result array (KernelValue, over the blockwise frame run of
  KernelBlocks). The reference side: its grouped normalisation read entry by entry for any number of groups (RefNorm), and
  its two results stage by stage (RefValue). `preserves` is trivial: the idealisation rewrote nothing.
-/
import proofs.«135775_j81552839017158_1_alg».proof.Defs
import proofs.«135775_j81552839017158_1_alg».proof.Proof.Gen.Kernel
import proofs.«135775_j81552839017158_1_alg».proof.Proof.Gen.Kernel.Skeleton
import proofs.«135775_j81552839017158_1_alg».proof.Proof.Gen.Kernel.Launch
import proofs.«135775_j81552839017158_1_alg».proof.Proof.Gen.Kernel.Points
import proofs.«135775_j81552839017158_1_alg».proof.Proof.Gen.Kernel.Frame
import proofs.«135775_j81552839017158_1_alg».proof.Proof.Gen.KernelIdeal
import proofs.«135775_j81552839017158_1_alg».proof.Proof.Gen.KernelIdeal.Skeleton
import proofs.«135775_j81552839017158_1_alg».proof.Proof.Gen.KernelIdeal.Launch
import proofs.«135775_j81552839017158_1_alg».proof.Proof.Gen.KernelIdeal.Points
import proofs.«135775_j81552839017158_1_alg».proof.Proof.Gen.KernelIdeal.Frame
import proofs.«135775_j81552839017158_1_alg».proof.Proof.Gen.ReferenceIdeal
import proofs.«135775_j81552839017158_1_alg».proof.Proof.Gen.Pre_finite_inputs
import proofs.«135775_j81552839017158_1_alg».proof.Proof.Gen.ReferenceIdeal.Run
import proofs.«135775_j81552839017158_1_alg».proof.Proof.KernelValue
import proofs.«135775_j81552839017158_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were: the generated frame. -/
theorem frame_k : Cert.frame_Kernel := fun m ρ _ => Cert.Kernel.Gen.frame m ρ

/-- So does the idealised kernel. -/
theorem frame_ki : Cert.frame_KernelIdeal := fun m ρ _ => Cert.KernelIdeal.Gen.frame m ρ

/-- The reference runs and leaves its arguments as they were: its run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- At the ideal values the kernel's two result arrays end at the new hidden state and the new cell state of its arguments,
    and the reference's two results are the same two functions of arguments that agree. -/
theorem algebraic : Cert.algebraic_KernelIdeal_ReferenceIdeal := by
  intro m ρ m' ρ' _ hagree
  refine ⟨fun c => Cert.KernelIdeal.Final.specH m c, fun c => Cert.KernelIdeal.Final.specC m c, Cert.KernelIdeal.Final.run m ρ, ?_⟩
  refine (θ_run Cert.ReferenceIdeal.defs _ _).mono (fun r h c => ?_) (Cert.ReferenceIdeal.Value.run (F := Ideal) m' ρ')
  obtain ⟨h87, h53, hargs⟩ := h c
  obtain ⟨a0, a1, a2, a3, a4, a5, a6, a7, a8, a9⟩ := hagree c
  have e0 : Cert.ReferenceIdeal.RefValue.aX (StableHlo.launchContents m' c) = Cert.KernelIdeal.Final.aX m c := a0
  have e1 : Cert.ReferenceIdeal.RefValue.aC (StableHlo.launchContents m' c) = Cert.KernelIdeal.Final.aC m c := a1
  have e2 : Cert.ReferenceIdeal.RefValue.aH (StableHlo.launchContents m' c) = Cert.KernelIdeal.Final.aH m c := a2
  have e3 : Cert.ReferenceIdeal.RefValue.aWx (StableHlo.launchContents m' c) = Cert.KernelIdeal.Final.aWx m c := a3
  have e4 : Cert.ReferenceIdeal.RefValue.aWh (StableHlo.launchContents m' c) = Cert.KernelIdeal.Final.aWh m c := a4
  have e5 : Cert.ReferenceIdeal.RefValue.aB (StableHlo.launchContents m' c) = Cert.KernelIdeal.Final.aB m c := a5
  have e6 : Cert.ReferenceIdeal.RefValue.aGam (StableHlo.launchContents m' c) = Cert.KernelIdeal.Final.aGam m c := a6
  have e7 : Cert.ReferenceIdeal.RefValue.aBet (StableHlo.launchContents m' c) = Cert.KernelIdeal.Final.aBet m c := a7
  have e8 : Cert.ReferenceIdeal.RefValue.aGc (StableHlo.launchContents m' c) = Cert.KernelIdeal.Final.aGc m c := a8
  have e9 : Cert.ReferenceIdeal.RefValue.aBc (StableHlo.launchContents m' c) = Cert.KernelIdeal.Final.aBc m c := a9
  refine ⟨h87.trans ?_, h53.trans ?_, hargs⟩
  · refine (Cert.ReferenceIdeal.RefValue.hiddenT_eq (StableHlo.launchContents m' c)).trans ?_
    rw [e0, e1, e2, e3, e4, e5, e6, e7, e8, e9]
    rfl
  · refine (Cert.ReferenceIdeal.RefValue.cellT_eq (StableHlo.launchContents m' c)).trans ?_
    rw [e0, e1, e2, e3, e4, e5, e6, e7]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
